-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x4 : Shape := ⟨2, ![500000, 4]⟩
abbrev S1x64 : Shape := ⟨2, ![1, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x4 : S_.BroadcastsInDim S500000x4 (![] : Fin 0 → Fin S500000x4.rank)
  reducesTo_S500000x4_S_d0_1 : S500000x4.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S500000x4 .f32) (main_arg1 : FVec F S1x64 .f32) (main_arg2 : FVec F S64 .f32) (main_arg3 : FVec F S64x1 .f32) (main_arg4 : FVec F S1 .f32) : IVec S_ 1 :=
  let main_v0 : FVec F S500000x4 .f32 := Host.absf main_arg0
  let main_cst : FVec F S_ .f32 := constant S_ .f32 0x7F800000#32
  let main_v1 : FVec F S500000x4 .f32 := broadcastInDim S500000x4 ![] bcast_S_S500000x4 main_cst
  let main_v2 : IVec S500000x4 1 := cmpf .olt main_v0 main_v1
  let main_c : IVec S_ 1 := constantI S_ 1 1#1
  let main_v3 : IVec S_ 1 := (fun x v => Host.reduce IntOp.andi x v reducesTo_S500000x4_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S500000x4 : Shape := ⟨2, ![500000, 4]⟩
abbrev S1x64 : Shape := ⟨2, ![1, 64]⟩
abbrev S64 : Shape := ⟨1, ![64]⟩
abbrev S64x1 : Shape := ⟨2, ![64, 1]⟩
abbrev S1 : Shape := ⟨1, ![1]⟩
abbrev S1x4 : Shape := ⟨2, ![1, 4]⟩
abbrev S1x1 : Shape := ⟨2, ![1, 1]⟩
abbrev S500000x1 : Shape := ⟨2, ![500000, 1]⟩
abbrev S5000x4 : Shape := ⟨2, ![5000, 4]⟩
abbrev S5000x1 : Shape := ⟨2, ![5000, 1]⟩
abbrev S1x1x64 : Shape := ⟨3, ![1, 1, 64]⟩
abbrev S1x1x1 : Shape := ⟨3, ![1, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S500000x4, .f32⟩
  | .hbm, ⟨1, _⟩ => ⟨S1x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1x4, .f32⟩
  | .hbm, ⟨6, _⟩ => ⟨S1x64, .f32⟩
  | .hbm, ⟨7, _⟩ => ⟨S1x64, .f32⟩
  | .hbm, ⟨8, _⟩ => ⟨S1x1, .f32⟩
  | .hbm, ⟨9, _⟩ => ⟨S500000x4, .f32⟩
  | .hbm, ⟨10, _⟩ => ⟨S500000x1, .f32⟩
  | .local _ .vmem, ⟨0, _⟩ => ⟨S5000x4, .f32⟩
  | .local _ .vmem, ⟨1, _⟩ => ⟨S5000x4, .f32⟩
  | .local _ .vmem, ⟨2, _⟩ => ⟨S1x4, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S5000x4, .f32⟩
  | .local _ .vmem, ⟨8, _⟩ => ⟨S5000x4, .f32⟩
  | .local _ .vmem, ⟨9, _⟩ => ⟨S5000x1, .f32⟩
  | .local _ .vmem, ⟨10, _⟩ => ⟨S5000x1, .f32⟩
  | _, _ => ⟨S500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  shapeCasts_S64x1_S1x64 : S64x1.ShapeCasts S1x64
  shapeCasts_S1_S1x1 : S1.ShapeCasts S1x1
  inb_S1x4_S1x4_0_0 : ∀ a, (![0, 0] : Fin 2 → Nat) a + S1x4.size a ≤ S1x4.size a
  h_S1x4 : 0 < S1x4.numel
  inb_S5000x4_S5000x4_0_0 : ∀ a, (![0, 0] : Fin 2 → Nat) a + S5000x4.size a ≤ S5000x4.size a
  h_S5000x4 : 0 < S5000x4.numel
  broadcasts_S1x4_S5000x4 : S1x4.Broadcasts S5000x4
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  reduces_S1x1x64_S1 : S1x1x64.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x1_S5000x1_0_0 : ∀ a, (![0, 0] : Fin 2 → Nat) a + S5000x1.size a ≤ S5000x1.size a
  h_S5000x1 : 0 < S5000x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S500000x4.size a
  hwx0_0 : ∀ i : grid0.Coords, EltTy.bits .f32 = 32 ∨ (Rect.block (s := S500000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x4.size a ≤ S500000x4.size a
  hwx0_6 : ∀ i : grid0.Coords, EltTy.bits .f32 = 32 ∨ (Rect.block (s := S500000x4) S5000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S500000x1.size a
  hwx0_7 : ∀ i : grid0.Coords, EltTy.bits .f32 = 32 ∨ (Rect.block (s := S500000x1) S5000x1.size (cc0_transform_7 i) (hinb0_7 i)).WholeWords (EltTy.packing .f32)

variable [Facts₀]

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S5000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x4 : Shape := ⟨2, ![500000, 4]⟩
abbrev S1x64 : Shape := ⟨2, ![1, 64]⟩
abbrev S64 : Shape := ⟨1, ![64]⟩
abbrev S64x1 : Shape := ⟨2, ![64, 1]⟩
abbrev S1 : Shape := ⟨1, ![1]⟩
abbrev S4 : Shape := ⟨1, ![4]⟩
abbrev S1x4 : Shape := ⟨2, ![1, 4]⟩
abbrev S_ : Shape := ⟨0, ![]⟩
abbrev S500000x1 : Shape := ⟨2, ![500000, 1]⟩
abbrev S500000 : Shape := ⟨1, ![500000]⟩
abbrev S499999 : Shape := ⟨1, ![499999]⟩
abbrev S500000x64 : Shape := ⟨2, ![500000, 64]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S500000x4, .f32⟩
  | .hbm, ⟨1, _⟩ => ⟨S1x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S4, .f32⟩
  | .hbm, ⟨6, _⟩ => ⟨S1x4, .f32⟩
  | .hbm, ⟨7, _⟩ => ⟨S500000x4, .f32⟩
  | .hbm, ⟨8, _⟩ => ⟨S500000x4, .f32⟩
  | .hbm, ⟨9, _⟩ => ⟨S_, .f32⟩
  | .hbm, ⟨10, _⟩ => ⟨S500000x1, .f32⟩
  | .hbm, ⟨11, _⟩ => ⟨S_, .f32⟩
  | .hbm, ⟨12, _⟩ => ⟨S500000x1, .f32⟩
  | .hbm, ⟨13, _⟩ => ⟨S500000x1, .f32⟩
  | .hbm, ⟨14, _⟩ => ⟨S500000x4, .f32⟩
  | .hbm, ⟨15, _⟩ => ⟨S500000x4, .i32⟩
  | .hbm, ⟨16, _⟩ => ⟨S_, .i32⟩
  | .hbm, ⟨17, _⟩ => ⟨S4, .i32⟩
  | .hbm, ⟨18, _⟩ => ⟨S1x4, .i32⟩
  | .hbm, ⟨19, _⟩ => ⟨S500000x4, .i32⟩
  | .hbm, ⟨20, _⟩ => ⟨S500000x4, .i32⟩
  | .hbm, ⟨21, _⟩ => ⟨S_, .i32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S500000x1, .i32⟩
  | .hbm, ⟨27, _⟩ => ⟨S500000, .i32⟩
  | .hbm, ⟨28, _⟩ => ⟨S1, .i32⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000, .i32⟩
  | .hbm, ⟨34, _⟩ => ⟨S500000, .i32⟩
  | .hbm, ⟨35, _⟩ => ⟨S1, .i32⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000, .i32⟩
  | .hbm, ⟨41, _⟩ => ⟨S500000, .i32⟩
  | .hbm, ⟨42, _⟩ => ⟨S1, .i32⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000, .i32⟩
  | .hbm, ⟨61, _⟩ => ⟨S_, .i32⟩
  | .hbm, ⟨62, _⟩ => ⟨S1, .i32⟩
  | .hbm, ⟨63, _⟩ => ⟨S499999, .i32⟩
  | .hbm, ⟨64, _⟩ => ⟨S499999, .i32⟩
  | .hbm, ⟨65, _⟩ => ⟨S499999, .i1⟩
  | .hbm, ⟨66, _⟩ => ⟨S499999, .i32⟩
  | .hbm, ⟨67, _⟩ => ⟨S500000, .i32⟩
  | .hbm, ⟨68, _⟩ => ⟨S_, .i32⟩
  | .hbm, ⟨69, _⟩ => ⟨S_, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000, .i32⟩
  | .hbm, ⟨82, _⟩ => ⟨S_, .f32⟩
  | .hbm, ⟨83, _⟩ => ⟨S500000, .f32⟩
  | .hbm, ⟨84, _⟩ => ⟨S_, .f32⟩
  | .hbm, ⟨85, _⟩ => ⟨S500000, .f32⟩
  | .hbm, ⟨86, _⟩ => ⟨S500000x1, .i32⟩
  | .hbm, ⟨87, _⟩ => ⟨S500000, .f32⟩
  | .hbm, ⟨88, _⟩ => ⟨S_, .f32⟩
  | .hbm, ⟨89, _⟩ => ⟨S500000x1, .f32⟩
  | .hbm, ⟨90, _⟩ => ⟨S500000x1, .i32⟩
  | .hbm, ⟨91, _⟩ => ⟨S500000x1, .f32⟩
  | .hbm, ⟨92, _⟩ => ⟨S_, .f32⟩
  | .hbm, ⟨93, _⟩ => ⟨S500000, .f32⟩
  | .hbm, ⟨94, _⟩ => ⟨S500000, .f32⟩
  | .hbm, ⟨95, _⟩ => ⟨S500000x1, .f32⟩
  | .hbm, ⟨96, _⟩ => ⟨S500000x1, .f32⟩
  | .hbm, ⟨97, _⟩ => ⟨S500000x64, .f32⟩
  | .hbm, ⟨98, _⟩ => ⟨S1x64, .f32⟩
  | .hbm, ⟨99, _⟩ => ⟨S500000x64, .f32⟩
  | .hbm, ⟨100, _⟩ => ⟨S500000x64, .f32⟩
  | .hbm, ⟨101, _⟩ => ⟨S_, .f32⟩
  | .hbm, ⟨102, _⟩ => ⟨S500000x64, .f32⟩
  | .hbm, ⟨103, _⟩ => ⟨S500000x64, .f32⟩
  | .hbm, ⟨104, _⟩ => ⟨S500000x1, .f32⟩
  | .hbm, ⟨105, _⟩ => ⟨S1x1, .f32⟩
  | .hbm, ⟨106, _⟩ => ⟨S500000x1, .f32⟩
  | .hbm, ⟨107, _⟩ => ⟨S500000x1, .f32⟩
  | .hbm, ⟨108, _⟩ => ⟨S_, .i32⟩
  | .hbm, ⟨109, _⟩ => ⟨S500000, .i32⟩
  | .hbm, ⟨110, _⟩ => ⟨S500000, .i1⟩
  | .hbm, ⟨111, _⟩ => ⟨S_, .i32⟩
  | .hbm, ⟨112, _⟩ => ⟨S500000, .i32⟩
  | .hbm, ⟨113, _⟩ => ⟨S500000, .i32⟩
  | .hbm, ⟨114, _⟩ => ⟨S500000, .i32⟩
  | .hbm, ⟨115, _⟩ => ⟨S500000x1, .i32⟩
  | .hbm, ⟨116, _⟩ => ⟨S500000x1, .f32⟩
  | .hbm, ⟨117, _⟩ => ⟨S1x4, .f32⟩
  | .hbm, ⟨118, _⟩ => ⟨S500000x4, .f32⟩
  | .hbm, ⟨119, _⟩ => ⟨S500000x4, .f32⟩
  | _, _ => ⟨S500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1_0 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call1_call0_c : Ref sig .tc := ⟨.hbm, 68, rfl⟩
abbrev main_call1_call0_v0 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call2_cst : Ref sig .tc := ⟨.hbm, 101, rfl⟩
abbrev main_call2_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_14 : Ref sig .tc := ⟨.hbm, 108, rfl⟩
abbrev main_v81 : Ref sig .tc := ⟨.hbm, 109, rfl⟩
abbrev main_v82 : Ref sig .tc := ⟨.hbm, 110, rfl⟩
abbrev main_c_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S_S500000x1 : S_.BroadcastsInDim S500000x1 (![] : Fin 0 → Fin S500000x1.rank)
  reducesTo_S500000x4_S4_d0 : S500000x4.ReducesTo [0] S4
  h_S_ : 0 < S_.numel
  bcast_S_S4 : S_.BroadcastsInDim S4 (![] : Fin 0 → Fin S4.rank)
  slices_S500000x4_S500000x1_0_0 : S500000x4.Slices ![0, 0] S500000x1
  shapeCasts_S500000x1_S500000 : S500000x1.ShapeCasts S500000
  slices_S4_S1_1 : S4.Slices ![1] S1
  shapeCasts_S1_S_ : S1.ShapeCasts S_
  bcast_S_S500000 : S_.BroadcastsInDim S500000 (![] : Fin 0 → Fin S500000.rank)
  slices_S500000x4_S500000x1_0_1 : S500000x4.Slices ![0, 1] S500000x1
  slices_S4_S1_2 : S4.Slices ![2] S1
  slices_S500000x4_S500000x1_0_2 : S500000x4.Slices ![0, 2] S500000x1
  slices_S4_S1_3 : S4.Slices ![3] S1
  slices_S500000x4_S500000x1_0_3 : S500000x4.Slices ![0, 3] S500000x1
  bcast_S500000_S500000x1_0 : S500000.BroadcastsInDim S500000x1 (![0] : Fin 1 → Fin S500000x1.rank)
  bcast_S_S1 : S_.BroadcastsInDim S1 (![] : Fin 0 → Fin S1.rank)
  slices_S500000_S499999_1 : S500000.Slices ![1] S499999
  slices_S500000_S499999_0 : S500000.Slices ![0] S499999
  natLt_1_32 : 1 < 32
  concatenates_S1_S499999_S500000_d0 : Shape.Concatenates [S1, S499999] S500000 0
  bcast_S_S_ : S_.BroadcastsInDim S_ (![] : Fin 0 → Fin S_.rank)
  reduceWindows_S500000_S500000_w500000s1p499999_0 : S500000.ReduceWindows (![500000] : Fin 1 → Nat) ![1] ![499999] ![0] S500000
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S500000_S500000x1_S500000_n_0_n_n_0_1_1_wf : GatherDims.WF S500000 S500000x1 S500000 [] [0] [] [0] [] 1 ![1]
  scatter_S500000_S500000x1_S500000_n_0_0_1_wf : ScatterDims.WF S500000 S500000x1 S500000 [] [0] [0] 1
  scatter_S500000x1_S500000x1_S500000x1_1_0_0_1_wf : ScatterDims.WF S500000x1 S500000x1 S500000x1 [1] [0] [0] 1
  dot_S500000x1_S1x64_S500000x64_1_0_0_1_n_n_wf : DotDims.WF S500000x1 S1x64 S500000x64 [1] [0] [0] [1] [] []
  dot_S500000x64_S64x1_S500000x1_1_0_0_1_n_n_wf : DotDims.WF S500000x64 S64x1 S500000x1 [1] [0] [0] [1] [] []
  gather_S500000x1_S500000x1_S500000x1_1_0_n_n_0_1_11_wf : GatherDims.WF S500000x1 S500000x1 S500000x1 [1] [0] [] [0] [] 1 ![1, 1]

variable [Facts₀]

def comparator_i32_i32_d0 : BitVec 32 × BitVec 32 → BitVec 32 × BitVec 32 → BitVec 1 :=
  fun l r =>
    let v2 := IntOp.cmpi .slt l.1 r.1
    v2
def gather_S500000_S500000x1_S500000_n_0_n_n_0_1_1 : GatherDims S500000 S500000x1 S500000 where
  offsetDims := []
  collapsedSliceDims := [0]
  operandBatchingDims := []
  startIndicesBatchingDims := []
  startIndexMap := [0]
  indexVectorDim := 1
  sliceSizes := ![1]
  wf := gather_S500000_S500000x1_S500000_n_0_n_n_0_1_1_wf
def scatter_S500000_S500000x1_S500000_n_0_0_1 : ScatterDims S500000 S500000x1 S500000 where
  updateWindowDims := []
  insertedWindowDims := [0]
  scatterDimsToOperandDims := [0]
  indexVectorDim := 1
  wf := scatter_S500000_S500000x1_S500000_n_0_0_1_wf
def scatter_S500000x1_S500000x1_S500000x1_1_0_0_1 : ScatterDims S500000x1 S500000x1 S500000x1 where
  updateWindowDims := [1]
  insertedWindowDims := [0]
  scatterDimsToOperandDims := [0]
  indexVectorDim := 1
  wf := scatter_S500000x1_S500000x1_S500000x1_1_0_0_1_wf
def dot_S500000x1_S1x64_S500000x64_1_0_0_1_n_n : DotDims S500000x1 S1x64 S500000x64 where
  lhsContracting := [1]
  rhsContracting := [0]
  lhsNonContracting := [0]
  rhsNonContracting := [1]
  lhsBatch := []
  rhsBatch := []
  wf := dot_S500000x1_S1x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf
def gather_S500000x1_S500000x1_S500000x1_1_0_n_n_0_1_11 : GatherDims S500000x1 S500000x1 S500000x1 where
  offsetDims := [1]
  collapsedSliceDims := [0]
  operandBatchingDims := []
  startIndicesBatchingDims := []
  startIndexMap := [0]
  indexVectorDim := 1
  sliceSizes := ![1, 1]
  wf := gather_S500000x1_S500000x1_S500000x1_1_0_n_n_0_1_11_wf

class Facts : Prop extends Facts₀ where

variable [Facts]
-- ==== Proof.Spec.lean ====
/-
  What both programs compute, as functions of the argument arrays on the extended reals.

  * The coordinates: every entry divided by the quantisation step `q` and multiplied by it again.
  * The features: ONE number for all points, the two-layer perceptron at the constant input `1/2`:
    `pred = Σ_j max (W1[0,j] · 1/2 + b1[j]) 0 · W2[j,0] + b2[0]`.
-/
import Idealize.ShloMosaic.PureOps.Ideal
import Idealize.ShloMosaic.Lib.ValueIdx

noncomputable section

namespace Cert.Spec

open Idealize.ShloMosaic Idealize.ShloMosaic.ValueIdx

/-- The quantisation step: the extended real the single-precision literal `0.1` denotes. -/
def q : EReal := Ideal.ofBits .f32 0x3DCCCCCD#32

/-- The constant per-point feature: the extended real the literal `0.5` denotes. -/
def half : EReal := Ideal.ofBits .f32 0x3F000000#32

/-- The coordinates: `(x / q) · q`, entry by entry. -/
def Gcoord (x : (⟨2, ![500000, 4]⟩ : Shape).Idx → EReal) : (⟨2, ![500000, 4]⟩ : Shape).Idx → EReal :=
  fun i => Ideal.div (x i) q * q

/-- Hidden unit `j` at the constant input: `max (W1[0,j] · 1/2 + b1[j]) 0`. -/
def hidden (W1 : (⟨2, ![1, 64]⟩ : Shape).Idx → EReal) (b1 : (⟨1, ![64]⟩ : Shape).Idx → EReal) (j : Fin 64) : EReal :=
  max (W1 (ix2 0 j) * half + b1 (ix1 j)) 0

/-- The prediction every point receives. -/
def pred (W1 : (⟨2, ![1, 64]⟩ : Shape).Idx → EReal) (b1 : (⟨1, ![64]⟩ : Shape).Idx → EReal)
    (W2 : (⟨2, ![64, 1]⟩ : Shape).Idx → EReal) (b2 : (⟨1, ![1]⟩ : Shape).Idx → EReal) : EReal :=
  (∑ j : Fin 64, hidden W1 b1 j * W2 (ix2 j 0)) + b2 (ix1 0)

/-- The features: the prediction at every point. -/
def Gfeat (W1 : (⟨2, ![1, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![500000, 1]⟩ : Shape).Idx → EReal :=
  fun _ => pred W1 b1 W2 b2

end Cert.Spec

end
-- ==== Proof.KernelCoord.lean ====
/-
  The coordinate array after the kernel's run is `(x / q) · q`.

  Grid point `t` stages rows `5000 t … 5000 t + 4999` of `x` and the quantisation row (a constant array of `q`),
  and writes back the block `(x_block / q_row) · q_row`; the 100 blocks tile the 500000 rows.
-/
import proofs.«134934_g20770461843884_cont_sun_c4_649_6_alg».proof.Proof.Gen.KernelIdeal.Value
import proofs.«134934_g20770461843884_cont_sun_c4_649_6_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelCoord

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The zero offsets of a whole-buffer rectangle are the constant zero function. -/
theorem zero_offsets : (![0, 0] : Fin 2 → Nat) = fun _ => 0 := funext fun a => by fin_cases a <;> rfl

/-- The quantisation row as the kernel finds it: the host wrote the constant array of `q` before the call. -/
theorem qrow_eq (c : Dev nD) :
    (V m c main_cst : S1x4.Idx → EReal) = constant (F := Ideal) S1x4 .f32 0x3DCCCCCD#32 := by
  dsimp only [Gen.V, Gen.hostOps0]; after_results

/-- Where the blocks sit: at point `t` the block of `x` and the block of the coordinates are both block `(t, 0)`,
    and the quantisation row is always block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_6.index t (0 : Fin 2) = t.val ∧ win0_6.index t (1 : Fin 2) = 0 :=
  (by decide +kernel : ∀ t : Fin grid0.N, _)

/-- What the body leaves in the coordinate block, for arbitrary staged blocks: entry `y` is
    `(P0 y / P1 (0, y₁)) · P1 (0, y₁)`. -/
theorem body_block (P0 : Vec Ideal S5000x4 .f32) (P1 : Vec Ideal S1x4 .f32) (x2 x3 x4 : Vec Ideal S1x64 .f32)
    (x5 : Vec Ideal S1x1 .f32) : out0_6 P0 P1 x2 x3 x4 x5 = Value.E6 P0 P1 := by
  unfold out0_6
  simp only [View.ld_unit_zero (S := S5000x4) zero_offsets, View.ld_unit_zero (S := S1x4) zero_offsets]
  funext y
  exact Value.canon6_eq P0 P1 y

/-- Point `t` writes back rows `5000 t … 5000 t + 4999` of `(x / q) · q`. -/
theorem flushed_eq (c : Dev nD) (t : Fin cfg0.N) :
    (dats m 0 c).flushed 6 t
      = ((cfg0.win 6).blk t).view.read (Elt Ideal) (Cert.Spec.Gcoord (m ((c : Thread nD τ).loc main_arg0))) := by
  rw [Value.flushed6, body_block (iblk m c 0 t) (iblk m c 1 t) (iblk m c 2 t) (iblk m c 3 t) (iblk m c 4 t) (iblk m c 5 t)]
  obtain ⟨e0, e1, e2, e3, e4, e5⟩ := idx_facts t
  funext j
  show FloatOps.mulf (F := Ideal) (φ := .f32) (FloatOps.divf (F := Ideal) (φ := .f32) (V m c main_arg0 (((cfg0.win 0).blk t).view.emb (Value.ix6_0 j)))
        (V m c main_cst (((cfg0.win 1).blk t).view.emb (Value.ix6_1 j))))
        (V m c main_cst (((cfg0.win 1).blk t).view.emb (Value.ix6_2 j)))
      = Ideal.div (m ((c : Thread nD τ).loc main_arg0) (((cfg0.win 6).blk t).view.emb j)) Cert.Spec.q * Cert.Spec.q
  have hq : ∀ k : S1x4.Idx, (V m c main_cst : S1x4.Idx → EReal) k = Cert.Spec.q := fun k => by
    rw [qrow_eq]; rfl
  have h0 : ((cfg0.win 0).blk t).view.emb (Value.ix6_0 j) = ((cfg0.win 6).blk t).view.emb j := by
    funext a; apply Fin.ext
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 4 + 1 * (j 1).val = win0_6.index t (1 : Fin 2) * 4 + 1 * (j 1).val; omega
  rw [hq, h0, V_main_arg0]
  rfl

/-- An index of the coordinate array is in point `t`'s block iff each coordinate is in the block's range on its axis. -/
theorem mem_blk (t : Fin cfg0.N) (i : S500000x4.Idx) :
    i ∈ ((cfg0.win 6).blk t).view.set ↔ ∀ a : Fin 2, win0_6.index t a * S5000x4.size a ≤ (i a).val
      ∧ (i a).val < win0_6.index t a * S5000x4.size a + S5000x4.size a := by
  show i ∈ ((View.whole main_v3_0).slice (win0_6.rect t)).set ↔ _
  rw [View.set_slice_whole, Rect.mem_set_unit]
  exact Iff.rfl

/-- Row `r` lies in the block of point `r / 5000`: the 100 blocks tile the 500000 rows. -/
theorem cover (i : S500000x4.Idx) :
    ∃ t : Fin cfg0.N, (cfg0.win 6).flush t = true ∧ i ∈ ((cfg0.win 6).blk t).view.set := by
  have hi0 : (i 0).val < 500000 := (i 0).isLt
  have hi1 : (i 1).val < 4 := (i 1).isLt
  have hN : cfg0.N = 100 := N_0
  have ht : (i 0).val / 5000 < cfg0.N := by rw [hN]; omega
  obtain ⟨-, -, -, -, e4, e5⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_6.index ⟨(i 0).val / 5000, ht⟩ (1 : Fin 2) * 4 ≤ (i 1).val
      ∧ (i 1).val < win0_6.index ⟨(i 0).val / 5000, ht⟩ (1 : Fin 2) * 4 + 4
    rw [e5]; omega

/-- After all 100 points the coordinate array (output window 6) is `(x / q) · q` of the first argument. -/
theorem final6 (c : Dev nD) :
    (dats m 0 c).arrAt 6 cfg0.N = Cert.Spec.Gcoord (m ((c : Thread nD τ).loc main_arg0)) :=
  (dats m 0 c).arrAt_eq_of_cover 6 (Cert.Spec.Gcoord (m ((c : Thread nD τ).loc main_arg0)))
    (fun t _ => flushed_eq m c t) cover

end Cert.KernelCoord

end
-- ==== Proof.KernelFeat.lean ====
/-
  The feature array after the kernel's run holds the prediction at every point.

  Every grid point stages the same four small arrays — `W1`, and `b1`, `W2`, `b2` re-laid as rows by the host
  — and writes the block whose 5000 entries are all the scalar
  `Σ_j max (W1[0,j] · 1/2 + b1[j]) 0 · W2[j,0] + b2[0]`; the 100 blocks tile the 500000 rows.

  The steps: the lane sum of a [1,1,64] vector is the sum over its last coordinate (`laneSum_row`); the stored value
  at any index of the block is the prediction of the four staged rows (`feat_payload`); the rows the host re-laid are
  shape casts of the arguments (`V_b1`, `V_W2`, `V_b2`), so each staged block read at a lane is an argument's entry
  (`blk_W1` … `blk_b2`); hence point `t` writes block `t` of the constant array (`point_writes_pred`), row `r` lies in the
  block of point `r / 5000` (`rows_covered`), and the array is the constant array (`final7`).
-/
import proofs.«134934_g20770461843884_cont_sun_c4_649_6_alg».proof.Proof.Gen.KernelIdeal.Value
import proofs.«134934_g20770461843884_cont_sun_c4_649_6_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelFeat

open Cert.KernelIdeal Cert.KernelIdeal.Gen Idealize.ShloMosaic Idealize.ShloMosaic.TcCoe Idealize.SL.Sem
open Idealize.ShloMosaic.Pipeline (Dat)
open Idealize.ShloMosaic.ValueIdx

/-- The [1,1,64] index set is its last coordinate's range: the two leading axes have one coordinate each. -/
def laneEquiv : S1x1x64.Idx ≃ Fin 64 where
  toFun i := i 2
  invFun k := ix3 0 0 k
  left_inv i := by
    funext a
    apply Fin.ext
    match a with
    | ⟨0, _⟩ => show (0 : ℕ) = (i 0).val; have h : (i 0).val < 1 := (i 0).isLt; omega
    | ⟨1, _⟩ => show (0 : ℕ) = (i 1).val; have h : (i 1).val < 1 := (i 1).isLt; omega
    | ⟨2, _⟩ => rfl
  right_inv _ := rfl

/-- The sum over lanes and the unit sublane axis of a row re-laid as [1,1,64] is the sum of the row's 64 entries. -/
theorem laneSum_row (u : FVec Ideal S1x64 .f32) (hc : S1x64.ShapeCasts S1x1x64) (hr : S1x1x64.Reduces [1, 2] S1)
    (hφ : FKind.Formats .f32) (hacc : (0x00000000#32 : BitVec 32) = FKind.add.neutral .f32 hφ) (j : S1.Idx) :
    multiReduction (F := Ideal) .add [1, 2] S1 (shapeCast S1x1x64 u hc) 0x00000000#32 hr hφ hacc j = ∑ k : Fin 64, u (ix2 0 k) := by
  refine (Ideal.multiReduction_add_total _ _ hr (fun b => ?_) hφ hacc j).trans ?_
  · match b with
    | ⟨0, _⟩ => rfl
  · refine Fintype.sum_equiv laneEquiv _ _ (fun i => ?_)
    refine shapeCast_apply u hc i (ix2 0 (i 2)) ?_
    rw [Shape.rowMajor_val_two, Shape.rowMajor_val_three]
    show 0 * 64 + (i 2).val = ((i 0).val * 1 + (i 1).val) * 64 + (i 2).val
    have h0 : (i 0).val < 1 := (i 0).isLt
    have h1 : (i 1).val < 1 := (i 1).isLt
    omega

/-- The body's stored value at any index of the block: the prediction of the four staged rows. -/
theorem feat_payload (v7 v10 v15 : Vec Ideal S1x64 .f32) (v22 : Vec Ideal S1x1 .f32) (y : S5000x1.Idx) :
    (k0_pay2 (F := Ideal) v7 v10 v15 v22) y
      = (∑ j : Fin 64, max (v7 (ix2 0 j) * Cert.Spec.half + v10 (ix2 0 j)) 0 * v15 (ix2 0 j)) + v22 (ix2 0 0) := by
  unfold k0_pay2
  dsimp only
  rw [broadcast_apply, Ideal.scalar_addf_def]
  congr 1
  · unfold extractAt
    refine (shapeCast_apply _ _ _ (ix1 0) ?_).trans ?_
    · rw [Shape.rowMajor_val_one, Shape.rowMajor_val_three]; rfl
    refine (laneSum_row _ _ _ _ _ (ix1 0)).trans ?_
    refine Finset.sum_congr rfl (fun k _ => ?_)
    rw [shapeCast_self, shapeCast_self]
    show max (v7 (ix2 0 k) * Ideal.ofBits .f32 0x3F000000#32 + v10 (ix2 0 k)) (Ideal.ofBits .f32 0x00000000#32) * v15 (ix2 0 k)
      = max (v7 (ix2 0 k) * Ideal.ofBits .f32 0x3F000000#32 + v10 (ix2 0 k)) 0 * v15 (ix2 0 k)
    rw [Ideal.ofBits_zero_f32]
  · unfold extractAt
    congr 1
    funext a
    match a with
    | ⟨0, _⟩ => rfl
    | ⟨1, _⟩ => rfl

variable (m : (ℓ : Loc nD τ sig) → Buf (Elt Ideal) ℓ)

/-- The bias of the hidden layer as the region finds it: the host re-laid the vector [64] as a row [1,64]. -/
theorem V_b1 (c : Dev nD) : (V m c main_v0 : S1x64.Idx → EReal)
    = shapeCast S1x64 (m ((c : Thread nD τ).loc main_arg2) : S64.Idx → EReal) Facts₀.shapeCasts_S64_S1x64 := by
  dsimp only [Gen.V, Gen.hostOps0]; after_results; rfl

/-- The output layer's weights as the region finds them: the host re-laid the column [64,1] as a row [1,64]. -/
theorem V_W2 (c : Dev nD) : (V m c main_v1 : S1x64.Idx → EReal)
    = shapeCast S1x64 (m ((c : Thread nD τ).loc main_arg3) : S64x1.Idx → EReal) Facts₀.shapeCasts_S64x1_S1x64 := by
  dsimp only [Gen.V, Gen.hostOps0]; after_results; rfl

/-- The output bias as the region finds it: the host re-laid the vector [1] as [1,1]. -/
theorem V_b2 (c : Dev nD) : (V m c main_v2 : S1x1.Idx → EReal)
    = shapeCast S1x1 (m ((c : Thread nD τ).loc main_arg4) : S1.Idx → EReal) Facts₀.shapeCasts_S1_S1x1 := by
  dsimp only [Gen.V, Gen.hostOps0]; after_results; rfl

/-- The printed index maps, decided over the 100 points: the four weight windows stay at block (0, 0), the feature
    window's block row is the point. -/
theorem block_indices : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = t.val ∧ win0_7.index t (1 : Fin 2) = 0 :=
  (by decide +kernel : ∀ t : Fin grid0.N, _)

/-- The staged block of `W1` at any point is `W1`. -/
theorem blk_W1 (c : Dev nD) (t : Fin cfg0.N) (x : S1x64.Idx) :
    (iblk m c 2 t : Vec Ideal S1x64 .f32) x = (m ((c : Thread nD τ).loc main_arg1) : S1x64.Idx → EReal) x := by
  obtain ⟨e0, e1, -⟩ := block_indices t
  unfold iblk
  rw [View.read_apply]
  show V m c main_arg1 _ = _
  rw [V_main_arg1]
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- The staged block of the hidden bias at any point, read at lane `j`, is `b1[j]`. -/
theorem blk_b1 (c : Dev nD) (t : Fin cfg0.N) (j : Fin 64) :
    (iblk m c 3 t : Vec Ideal S1x64 .f32) (ix2 0 j) = (m ((c : Thread nD τ).loc main_arg2) : S64.Idx → EReal) (ix1 j) := by
  obtain ⟨-, -, e0, e1, -⟩ := block_indices t
  unfold iblk
  rw [View.read_apply]
  show V m c main_v0 _ = _
  rw [V_b1]
  refine shapeCast_apply _ _ _ (ix1 j) ?_
  rw [Shape.rowMajor_val_one, Shape.rowMajor_val_two]
  show j.val = (win0_3.index t (0 : Fin 2) * 1 + 1 * 0) * 64 + (win0_3.index t (1 : Fin 2) * 64 + 1 * j.val)
  rw [e0, e1]; omega

/-- The staged block of the output weights at any point, read at lane `j`, is `W2[j,0]`. -/
theorem blk_W2 (c : Dev nD) (t : Fin cfg0.N) (j : Fin 64) :
    (iblk m c 4 t : Vec Ideal S1x64 .f32) (ix2 0 j) = (m ((c : Thread nD τ).loc main_arg3) : S64x1.Idx → EReal) (ix2 j 0) := by
  obtain ⟨-, -, -, -, e0, e1, -⟩ := block_indices t
  unfold iblk
  rw [View.read_apply]
  show V m c main_v1 _ = _
  rw [V_W2]
  refine shapeCast_apply _ _ _ (ix2 j 0) ?_
  rw [Shape.rowMajor_val_two, Shape.rowMajor_val_two]
  show j.val * 1 + 0 = (win0_4.index t (0 : Fin 2) * 1 + 1 * 0) * 64 + (win0_4.index t (1 : Fin 2) * 64 + 1 * j.val)
  rw [e0, e1]; omega

/-- The staged block of the output bias at any point is `b2[0]`. -/
theorem blk_b2 (c : Dev nD) (t : Fin cfg0.N) :
    (iblk m c 5 t : Vec Ideal S1x1 .f32) (ix2 0 0) = (m ((c : Thread nD τ).loc main_arg4) : S1.Idx → EReal) (ix1 0) := by
  obtain ⟨-, -, -, -, -, -, e0, e1, -⟩ := block_indices t
  unfold iblk
  rw [View.read_apply]
  show V m c main_v2 _ = _
  rw [V_b2]
  refine shapeCast_apply _ _ _ (ix1 0) ?_
  rw [Shape.rowMajor_val_one, Shape.rowMajor_val_two]
  show 0 = (win0_5.index t (0 : Fin 2) * 1 + 1 * 0) * 1 + (win0_5.index t (1 : Fin 2) * 1 + 1 * 0)
  rw [e0, e1]

/-- The zero offsets of a whole-buffer access, as the constant function. -/
theorem zero_offsets : (![0, 0] : Fin 2 → Nat) = fun _ => 0 := funext fun a => by fin_cases a <;> rfl

/-- What point `t` writes back to the feature array is block `t` of the constant array at the prediction. -/
theorem point_writes_pred (c : Dev nD) (t : Fin cfg0.N) :
    (dats m 0 c).flushed 7 t = ((cfg0.win 7).blk t).view.read (Elt Ideal)
      (Cert.Spec.Gfeat (m ((c : Thread nD τ).loc main_arg1)) (m ((c : Thread nD τ).loc main_arg2))
        (m ((c : Thread nD τ).loc main_arg3)) (m ((c : Thread nD τ).loc main_arg4))) := by
  rw [Value.flushed7]
  unfold out0_7
  rw [View.canon_unit_zero zero_offsets]
  simp only [View.ld_unit_zero (S := S1x64) zero_offsets, View.ld_unit_zero (S := S1x1) zero_offsets]
  funext y
  show (k0_pay2 (F := Ideal) (iblk m c 2 t) (iblk m c 3 t) (iblk m c 4 t) (iblk m c 5 t)) y = Cert.Spec.pred _ _ _ _
  refine (feat_payload _ _ _ _ y).trans ?_
  unfold Cert.Spec.pred Cert.Spec.hidden
  refine congrArg₂ (· + ·) (Finset.sum_congr rfl fun j _ => ?_) (blk_b2 m c t)
  exact congrArg₂ (· * ·) (congrArg₂ max (congrArg₂ (· + ·) (congrArg (· * Cert.Spec.half) (blk_W1 m c t (ix2 0 j))) (blk_b1 m c t j)) rfl) (blk_W2 m c t j)

/-- An index of the feature array is in point `t`'s block iff each coordinate is in the block's range on its axis. -/
theorem mem_featBlock (t : Fin cfg0.N) (i : S500000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v3_1).slice (win0_7.rect t)).set ↔ _
  rw [View.set_slice_whole, Rect.mem_set_unit]
  exact Iff.rfl

/-- Row `r` of the feature array is in the block of point `r / 5000`. -/
theorem rows_covered (i : S500000x1.Idx) : ∃ t : Fin cfg0.N, (cfg0.win 7).flush t = true ∧ i ∈ ((cfg0.win 7).blk t).view.set := by
  have hN : cfg0.N = 100 := N_0
  have h0 : (i 0).val < 500000 := (i 0).isLt
  have h1 : (i 1).val < 1 := (i 1).isLt
  obtain ⟨t, ht⟩ : ∃ t : Fin cfg0.N, t.val = (i 0).val / 5000 := ⟨⟨(i 0).val / 5000, by rw [hN]; omega⟩, rfl⟩
  obtain ⟨-, -, -, -, -, -, -, -, e0, e1⟩ := block_indices t
  refine ⟨t, flush0_7 t, ?_⟩
  rw [mem_featBlock]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 1 ≤ (i 1).val ∧ (i 1).val < win0_7.index t (1 : Fin 2) * 1 + 1
    rw [e1]; omega

/-- After all 100 points the feature array (output window 7) holds the prediction of the weight arguments. -/
theorem final7 (c : Dev nD) :
    (dats m 0 c).arrAt 7 cfg0.N = Cert.Spec.Gfeat (m ((c : Thread nD τ).loc main_arg1)) (m ((c : Thread nD τ).loc main_arg2))
      (m ((c : Thread nD τ).loc main_arg3)) (m ((c : Thread nD τ).loc main_arg4)) :=
  (dats m 0 c).arrAt_eq_of_cover 7 _ (fun t _ => point_writes_pred m c t) rows_covered

end Cert.KernelFeat

end
-- ==== Proof.KernelValue.lean ====
/-
  The kernel's run at the extended reals: after it, the coordinate array is `(x / q) · q` and the feature array
  holds the prediction at every point; the arguments are unchanged. The generated run names each output array
  after the run; the two modules imported here say what those arrays are.
-/
import proofs.«134934_g20770461843884_cont_sun_c4_649_6_alg».proof.Proof.Gen.KernelIdeal.Value
import proofs.«134934_g20770461843884_cont_sun_c4_649_6_alg».proof.Proof.Spec
import proofs.«134934_g20770461843884_cont_sun_c4_649_6_alg».proof.Proof.KernelCoord
import proofs.«134934_g20770461843884_cont_sun_c4_649_6_alg».proof.Proof.KernelFeat

noncomputable section

namespace Cert.KernelValue

open Cert.KernelIdeal Cert.KernelIdeal.Gen Idealize.ShloMosaic Idealize.ShloMosaic.TcCoe Idealize.SL.Sem

/-- Every weakly fair execution of the idealized kernel terminates with the feature array at the prediction, the
    coordinate array at `(x / q) · q`, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_1) = Cert.Spec.Gfeat (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v3_0) = Cert.Spec.Gcoord (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).2.1.trans (Cert.KernelFeat.final7 m c), (h c).1.trans (Cert.KernelCoord.final6 m c), (h c).2.2⟩)
    (Cert.KernelIdeal.Value.run_blocks (F := Ideal) m ρ)

end Cert.KernelValue

end
-- ==== Proof.RefTerms.lean ====
/-
  The reference's two results as named functions of its arguments.

  The reference quantises the points (`coords = x / q`), gives every point the constant feature `1/2 · 1`,
  groups the points into voxels — an integer key per point, the keys' argsort `order`, a flag where the
  sorted key changes, the flags' running count `ranks`, scattered back through `order` to a voxel number
  `inv` per point —, averages the feature over each voxel (`segsum / max counts 1`), applies a two-layer
  perceptron to every voxel's average and reads each point's voxel back (`featOf`). The second result is
  `coords · q`.

  Everything after the keys is stated here for ARBITRARY `keys` and `order`: the value of the first result
  does not depend on what the keys or their sort are, only on every `inv` entry naming a voxel that holds
  at least the point itself.
-/
import proofs.«134934_g20770461843884_cont_sun_c4_649_6_alg».proof.ReferenceIdeal

noncomputable section

namespace Cert.RefTerms

open Idealize.ShloMosaic Cert.ReferenceIdeal Cert.ReferenceIdeal.Facts₀

variable {F : FTy → Type} [FloatOps F] [Cert.ReferenceIdeal.Facts]

/-! ## The quantised coordinates and the second result -/

/-- The quantisation row `[q, q, q, q]` over all points. -/
def qfull : FVec F S500000x4 .f32 :=
  broadcastInDim S500000x4 ![0, 1] bcast_S1x4_S500000x4_0_1 (broadcastInDim S1x4 ![1] bcast_S4_S1x4_1 (constant S4 .f32 0x3DCCCCCD#32))

/-- `coords = x / q`. -/
def coords (x : FVec F S500000x4 .f32) : FVec F S500000x4 .f32 := Host.divf x qfull

/-- The second result, `coords · q`. -/
def out90 (x : FVec F S500000x4 .f32) : FVec F S500000x4 .f32 := mulf (coords x) qfull

/-! ## The voxel keys (their values play no part in the result) -/

/-- The integer voxel coordinates, shifted to start at zero. -/
def ishift (x : FVec F S500000x4 .f32) : IVec S500000x4 32 :=
  let ivox : IVec S500000x4 32 := fptosi 32 (Host.floor (coords x))
  subi ivox (broadcastInDim S500000x4 ![0, 1] bcast_S1x4_S500000x4_0_1 (broadcastInDim S1x4 ![1] bcast_S4_S1x4_1
    (Host.reduce IntOp.minsi ivox (constantI S_ 32 2147483647#32) reducesTo_S500000x4_S4_d0 h_S_)))

/-- The extents `max + 1` per coordinate. -/
def extents (sh : IVec S500000x4 32) : IVec S4 32 :=
  addi (Host.reduce IntOp.maxsi sh (constantI S_ 32 2147483648#32) reducesTo_S500000x4_S4_d0 h_S_)
    (broadcastInDim S4 ![] bcast_S_S4 (constantI S_ 32 1#32))

/-- The mixed-radix key of each point. -/
def keysOfShift (sh : IVec S500000x4 32) : IVec S500000 32 :=
  let ex := extents sh
  let c0 : IVec S500000 32 := shapeCast S500000 (extractStridedSlice S500000x1 ![0, 0] sh slices_S500000x4_S500000x1_0_0) shapeCasts_S500000x1_S500000
  let c1 : IVec S500000 32 := shapeCast S500000 (extractStridedSlice S500000x1 ![0, 1] sh slices_S500000x4_S500000x1_0_1) shapeCasts_S500000x1_S500000
  let c2 : IVec S500000 32 := shapeCast S500000 (extractStridedSlice S500000x1 ![0, 2] sh slices_S500000x4_S500000x1_0_2) shapeCasts_S500000x1_S500000
  let c3 : IVec S500000 32 := shapeCast S500000 (extractStridedSlice S500000x1 ![0, 3] sh slices_S500000x4_S500000x1_0_3) shapeCasts_S500000x1_S500000
  let e1 : IVec S500000 32 := broadcastInDim S500000 ![] bcast_S_S500000 (shapeCast S_ (extractStridedSlice S1 ![1] ex slices_S4_S1_1) shapeCasts_S1_S_)
  let e2 : IVec S500000 32 := broadcastInDim S500000 ![] bcast_S_S500000 (shapeCast S_ (extractStridedSlice S1 ![2] ex slices_S4_S1_2) shapeCasts_S1_S_)
  let e3 : IVec S500000 32 := broadcastInDim S500000 ![] bcast_S_S500000 (shapeCast S_ (extractStridedSlice S1 ![3] ex slices_S4_S1_3) shapeCasts_S1_S_)
  addi (muli (addi (muli (addi (muli c0 e1) c1) e2) c2) e3) c3

/-- The keys of the points `x`. -/
def keysOf (x : FVec F S500000x4 .f32) : IVec S500000 32 := keysOfShift (ishift x)

/-- The stable argsort of the keys. -/
def orderOf (keys : IVec S500000 32) : IVec S500000 32 :=
  (Host.sort2 S500000 0 comparator_i32_i32_d0 keys (iotaInDim S500000 32 0)).2

/-! ## From keys and an order to each point's voxel number -/

/-- An index vector with a negative entry counted from the end, as jnp indexing reads it. -/
def wrapIdx (v : IVec S500000 32) : IVec S500000 32 :=
  select (cmpi .slt v (broadcastInDim S500000 ![] bcast_S_S500000 (constantI S_ 32 0#32)))
    (addi v (broadcastInDim S500000 ![] bcast_S_S500000 (constantI S_ 32 500000#32))) v

/-- An index vector as a column of one-component index vectors. -/
def col (v : IVec S500000 32) : IVec S500000x1 32 := broadcastInDim S500000x1 ![0] bcast_S500000_S500000x1_0 v

/-- The keys in sorted order. -/
def sortedKeys (keys order : IVec S500000 32) : IVec S500000 32 :=
  Host.gather gather_S500000_S500000x1_S500000_n_0_n_n_0_1_1 keys (col (wrapIdx order))

/-- The flags: `0` at the first position, then `1` exactly where the sorted key differs from the one before. -/
def boundaries (sk : IVec S500000 32) : IVec S500000 32 :=
  concatenate S500000 0
    [⟨S1, broadcastInDim S1 ![] bcast_S_S1 (constantI S_ 32 0#32)⟩,
     ⟨S499999, extui 32 (cmpi .ne (extractStridedSlice S499999 ![1] sk slices_S500000_S499999_1)
        (extractStridedSlice S499999 ![0] sk slices_S500000_S499999_0)) natLt_1_32⟩]
    concatenates_S1_S499999_S500000_d0

/-- The running count of the flags. -/
def ranks (bd : IVec S500000 32) : IVec S500000 32 :=
  Host.reduceWindow IntOp.addi ![500000] ![1] ![499999] ![0] bd
    (broadcastInDim S_ ![] bcast_S_S_ (constantI S_ 32 0#32)) reduceWindows_S500000_S500000_w500000s1p499999_0 h_S_

/-- The ranks written back through the order onto zeros: each point's voxel number. -/
def invOf (order rk : IVec S500000 32) : IVec S500000 32 :=
  Host.scatter scatter_S500000_S500000x1_S500000_n_0_0_1 (fun _ b => b)
    (broadcastInDim S500000 ![] bcast_S_S500000 (constantI S_ 32 0#32)) (col (wrapIdx order)) rk

/-- Each point's voxel number, from the keys and an order. -/
def invFrom (keys order : IVec S500000 32) : IVec S500000 32 :=
  invOf order (ranks (boundaries (sortedKeys keys order)))

/-! ## The voxel averages, the perceptron, and the first result -/

/-- How many points name each voxel. -/
def counts (inv : IVec S500000 32) : FVec F S500000 .f32 :=
  Host.scatterAdd scatter_S500000_S500000x1_S500000_n_0_0_1
    (broadcastInDim S500000 ![] bcast_S_S500000 (constant S_ .f32 0x00000000#32)) (col inv)
    (broadcastInDim S500000 ![] bcast_S_S500000 (constant S_ .f32 0x3F800000#32))

/-- The constant per-point feature `1/2 · 1`. -/
def feats : FVec F S500000x1 .f32 :=
  mulf (broadcastInDim S500000x1 ![] bcast_S_S500000x1 (constant S_ .f32 0x3F000000#32))
    (broadcastInDim S500000x1 ![] bcast_S_S500000x1 (constant S_ .f32 0x3F800000#32))

/-- The features summed over each voxel. -/
def segsum (inv : IVec S500000 32) : FVec F S500000x1 .f32 :=
  Host.scatterAdd scatter_S500000x1_S500000x1_S500000x1_1_0_0_1
    (broadcastInDim S500000x1 ![] bcast_S_S500000x1 (constant S_ .f32 0x00000000#32)) (col inv) feats

/-- The voxel averages `segsum / max counts 1`. -/
def vfeat (inv : IVec S500000 32) : FVec F S500000x1 .f32 :=
  Host.divf (segsum inv) (broadcastInDim S500000x1 ![0] bcast_S500000_S500000x1_0
    (maximumf (counts inv) (broadcastInDim S500000 ![] bcast_S_S500000 (constant S_ .f32 0x3F800000#32))))

/-- The perceptron on every voxel: `relu (vfeat · W1 + b1) · W2 + b2`. -/
def vout (inv : IVec S500000 32) (W1 : FVec F S1x64 .f32) (b1 : FVec F S64 .f32) (W2 : FVec F S64x1 .f32) (b2 : FVec F S1 .f32) :
    FVec F S500000x1 .f32 :=
  addf (Host.dotGeneral dot_S500000x64_S64x1_S500000x1_1_0_0_1_n_n none
      (maximumf (addf (Host.dotGeneral dot_S500000x1_S1x64_S500000x64_1_0_0_1_n_n none (vfeat inv) W1)
          (broadcastInDim S500000x64 ![0, 1] bcast_S1x64_S500000x64_0_1 (broadcastInDim S1x64 ![1] bcast_S64_S1x64_1 b1)))
        (broadcastInDim S500000x64 ![] bcast_S_S500000x64 (constant S_ .f32 0x00000000#32))) W2)
    (broadcastInDim S500000x1 ![0, 1] bcast_S1x1_S500000x1_0_1 (broadcastInDim S1x1 ![1] bcast_S1_S1x1_1 b2))

/-- Each point reads its voxel's prediction back. -/
def featOf (inv : IVec S500000 32) (W1 : FVec F S1x64 .f32) (b1 : FVec F S64 .f32) (W2 : FVec F S64x1 .f32) (b2 : FVec F S1 .f32) :
    FVec F S500000x1 .f32 :=
  Host.gather gather_S500000x1_S500000x1_S500000x1_1_0_n_n_0_1_11 (vout inv W1 b1 W2 b2) (col (wrapIdx inv))

/-- The first result. -/
def out87 (x : FVec F S500000x4 .f32) (W1 : FVec F S1x64 .f32) (b1 : FVec F S64 .f32) (W2 : FVec F S64x1 .f32) (b2 : FVec F S1 .f32) :
    FVec F S500000x1 .f32 :=
  featOf (invFrom (keysOf x) (orderOf (keysOf x))) W1 b1 W2 b2

end Cert.RefTerms

end
-- ==== Proof.RefRun.lean ====
/-
  The reference's run: @main is a straight line of host operations (the three module-local functions unfolded
  at their calls), so every weakly fair execution terminates with each result buffer at the operations'
  composed term of the arguments — the named functions `out87` and `out90` — and the arguments unchanged.

  The line is cut into six stretches at the values the later ones read: the keys, the order, the change flags,
  the voxel numbers, the first result, the second. Each stretch is read back over an ARBITRARY valuation (what it
  computes from the buffers it reads, and which buffers it leaves alone); the stretches are then composed, so no
  step ever handles more than one stretch's operations.
-/
import proofs.«134934_g20770461843884_cont_sun_c4_649_6_alg».proof.Proof.Gen.ReferenceIdeal
import proofs.«134934_g20770461843884_cont_sun_c4_649_6_alg».proof.Proof.RefTerms
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.RefTerms

variable {F : FTy → Type} [FloatOps F]

/-! ## @main's operations, in order, in six stretches -/

/-- The quantised coordinates, the constant feature column and the mixed-radix keys (through `%37`). -/
abbrev opsA : List (HloOp τ sig (Elt F)) :=
  [StableHlo.nullary main_cst (constant S4 .f32 0x3DCCCCCD#32),
    StableHlo.unary main_cst main_v0 (broadcastInDim S1x4 ![1] bcast_S4_S1x4_1 : (⟨S4, .f32⟩ : BufTy).Contents (Elt F) → (⟨S1x4, .f32⟩ : BufTy).Contents (Elt F)),
    StableHlo.unary main_v0 main_v1 (broadcastInDim S500000x4 ![0, 1] bcast_S1x4_S500000x4_0_1 : (⟨S1x4, .f32⟩ : BufTy).Contents (Elt F) → (⟨S500000x4, .f32⟩ : BufTy).Contents (Elt F)),
    StableHlo.binary main_arg0 main_v1 main_v2 (Host.divf : (⟨S500000x4, .f32⟩ : BufTy).Contents (Elt F) → (⟨S500000x4, .f32⟩ : BufTy).Contents (Elt F) → (⟨S500000x4, .f32⟩ : BufTy).Contents (Elt F)),
    StableHlo.nullary main_cst_0 (constant S_ .f32 0x3F800000#32),
    StableHlo.unary main_cst_0 main_v3 (broadcastInDim S500000x1 ![] bcast_S_S500000x1 : (⟨S_, .f32⟩ : BufTy).Contents (Elt F) → (⟨S500000x1, .f32⟩ : BufTy).Contents (Elt F)),
    StableHlo.nullary main_cst_1 (constant S_ .f32 0x3F000000#32),
    StableHlo.unary main_cst_1 main_v4 (broadcastInDim S500000x1 ![] bcast_S_S500000x1 : (⟨S_, .f32⟩ : BufTy).Contents (Elt F) → (⟨S500000x1, .f32⟩ : BufTy).Contents (Elt F)),
    StableHlo.binary main_v4 main_v3 main_v5 (mulf : (⟨S500000x1, .f32⟩ : BufTy).Contents (Elt F) → (⟨S500000x1, .f32⟩ : BufTy).Contents (Elt F) → (⟨S500000x1, .f32⟩ : BufTy).Contents (Elt F)),
    StableHlo.unary main_v2 main_v6 (Host.floor : (⟨S500000x4, .f32⟩ : BufTy).Contents (Elt F) → (⟨S500000x4, .f32⟩ : BufTy).Contents (Elt F)),
    StableHlo.unary main_v6 main_v7 (fptosi 32 : (⟨S500000x4, .f32⟩ : BufTy).Contents (Elt F) → (⟨S500000x4, .i32⟩ : BufTy).Contents (Elt F)),
    StableHlo.nullary main_c (constantI S_ 32 2147483647#32),
    StableHlo.binary main_v7 main_c main_v8 ((fun x v => Host.reduce IntOp.minsi x v reducesTo_S500000x4_S4_d0 h_S_) : (⟨S500000x4, .i32⟩ : BufTy).Contents (Elt F) → (⟨S_, .i32⟩ : BufTy).Contents (Elt F) → (⟨S4, .i32⟩ : BufTy).Contents (Elt F)),
    StableHlo.unary main_v8 main_v9 (broadcastInDim S1x4 ![1] bcast_S4_S1x4_1 : (⟨S4, .i32⟩ : BufTy).Contents (Elt F) → (⟨S1x4, .i32⟩ : BufTy).Contents (Elt F)),
    StableHlo.unary main_v9 main_v10 (broadcastInDim S500000x4 ![0, 1] bcast_S1x4_S500000x4_0_1 : (⟨S1x4, .i32⟩ : BufTy).Contents (Elt F) → (⟨S500000x4, .i32⟩ : BufTy).Contents (Elt F)),
    StableHlo.binary main_v7 main_v10 main_v11 (subi : (⟨S500000x4, .i32⟩ : BufTy).Contents (Elt F) → (⟨S500000x4, .i32⟩ : BufTy).Contents (Elt F) → (⟨S500000x4, .i32⟩ : BufTy).Contents (Elt F)),
    StableHlo.nullary main_c_2 (constantI S_ 32 2147483648#32),
    StableHlo.binary main_v11 main_c_2 main_v12 ((fun x v => Host.reduce IntOp.maxsi x v reducesTo_S500000x4_S4_d0 h_S_) : (⟨S500000x4, .i32⟩ : BufTy).Contents (Elt F) → (⟨S_, .i32⟩ : BufTy).Contents (Elt F) → (⟨S4, .i32⟩ : BufTy).Contents (Elt F)),
    StableHlo.nullary main_c_3 (constantI S_ 32 1#32),
    StableHlo.unary main_c_3 main_v13 (broadcastInDim S4 ![] bcast_S_S4 : (⟨S_, .i32⟩ : BufTy).Contents (Elt F) → (⟨S4, .i32⟩ : BufTy).Contents (Elt F)),
    StableHlo.binary main_v12 main_v13 main_v14 (addi : (⟨S4, .i32⟩ : BufTy).Contents (Elt F) → (⟨S4, .i32⟩ : BufTy).Contents (Elt F) → (⟨S4, .i32⟩ : BufTy).Contents (Elt F)),
    StableHlo.unary main_v11 main_v15 ((extractStridedSlice S500000x1 ![0, 0] · slices_S500000x4_S500000x1_0_0) : (⟨S500000x4, .i32⟩ : BufTy).Contents (Elt F) → (⟨S500000x1, .i32⟩ : BufTy).Contents (Elt F)),
    StableHlo.reshape main_v15 main_v16 rfl shapeCasts_S500000x1_S500000,
    StableHlo.unary main_v14 main_v17 ((extractStridedSlice S1 ![1] · slices_S4_S1_1) : (⟨S4, .i32⟩ : BufTy).Contents (Elt F) → (⟨S1, .i32⟩ : BufTy).Contents (Elt F)),
    StableHlo.reshape main_v17 main_v18 rfl shapeCasts_S1_S_,
    StableHlo.unary main_v18 main_v19 (broadcastInDim S500000 ![] bcast_S_S500000 : (⟨S_, .i32⟩ : BufTy).Contents (Elt F) → (⟨S500000, .i32⟩ : BufTy).Contents (Elt F)),
    StableHlo.binary main_v16 main_v19 main_v20 (muli : (⟨S500000, .i32⟩ : BufTy).Contents (Elt F) → (⟨S500000, .i32⟩ : BufTy).Contents (Elt F) → (⟨S500000, .i32⟩ : BufTy).Contents (Elt F)),
    StableHlo.unary main_v11 main_v21 ((extractStridedSlice S500000x1 ![0, 1] · slices_S500000x4_S500000x1_0_1) : (⟨S500000x4, .i32⟩ : BufTy).Contents (Elt F) → (⟨S500000x1, .i32⟩ : BufTy).Contents (Elt F)),
    StableHlo.reshape main_v21 main_v22 rfl shapeCasts_S500000x1_S500000,
    StableHlo.binary main_v20 main_v22 main_v23 (addi : (⟨S500000, .i32⟩ : BufTy).Contents (Elt F) → (⟨S500000, .i32⟩ : BufTy).Contents (Elt F) → (⟨S500000, .i32⟩ : BufTy).Contents (Elt F)),
    StableHlo.unary main_v14 main_v24 ((extractStridedSlice S1 ![2] · slices_S4_S1_2) : (⟨S4, .i32⟩ : BufTy).Contents (Elt F) → (⟨S1, .i32⟩ : BufTy).Contents (Elt F)),
    StableHlo.reshape main_v24 main_v25 rfl shapeCasts_S1_S_,
    StableHlo.unary main_v25 main_v26 (broadcastInDim S500000 ![] bcast_S_S500000 : (⟨S_, .i32⟩ : BufTy).Contents (Elt F) → (⟨S500000, .i32⟩ : BufTy).Contents (Elt F)),
    StableHlo.binary main_v23 main_v26 main_v27 (muli : (⟨S500000, .i32⟩ : BufTy).Contents (Elt F) → (⟨S500000, .i32⟩ : BufTy).Contents (Elt F) → (⟨S500000, .i32⟩ : BufTy).Contents (Elt F)),
    StableHlo.unary main_v11 main_v28 ((extractStridedSlice S500000x1 ![0, 2] · slices_S500000x4_S500000x1_0_2) : (⟨S500000x4, .i32⟩ : BufTy).Contents (Elt F) → (⟨S500000x1, .i32⟩ : BufTy).Contents (Elt F)),
    StableHlo.reshape main_v28 main_v29 rfl shapeCasts_S500000x1_S500000,
    StableHlo.binary main_v27 main_v29 main_v30 (addi : (⟨S500000, .i32⟩ : BufTy).Contents (Elt F) → (⟨S500000, .i32⟩ : BufTy).Contents (Elt F) → (⟨S500000, .i32⟩ : BufTy).Contents (Elt F)),
    StableHlo.unary main_v14 main_v31 ((extractStridedSlice S1 ![3] · slices_S4_S1_3) : (⟨S4, .i32⟩ : BufTy).Contents (Elt F) → (⟨S1, .i32⟩ : BufTy).Contents (Elt F)),
    StableHlo.reshape main_v31 main_v32 rfl shapeCasts_S1_S_,
    StableHlo.unary main_v32 main_v33 (broadcastInDim S500000 ![] bcast_S_S500000 : (⟨S_, .i32⟩ : BufTy).Contents (Elt F) → (⟨S500000, .i32⟩ : BufTy).Contents (Elt F)),
    StableHlo.binary main_v30 main_v33 main_v34 (muli : (⟨S500000, .i32⟩ : BufTy).Contents (Elt F) → (⟨S500000, .i32⟩ : BufTy).Contents (Elt F) → (⟨S500000, .i32⟩ : BufTy).Contents (Elt F)),
    StableHlo.unary main_v11 main_v35 ((extractStridedSlice S500000x1 ![0, 3] · slices_S500000x4_S500000x1_0_3) : (⟨S500000x4, .i32⟩ : BufTy).Contents (Elt F) → (⟨S500000x1, .i32⟩ : BufTy).Contents (Elt F)),
    StableHlo.reshape main_v35 main_v36 rfl shapeCasts_S500000x1_S500000,
    StableHlo.binary main_v34 main_v36 main_v37 (addi : (⟨S500000, .i32⟩ : BufTy).Contents (Elt F) → (⟨S500000, .i32⟩ : BufTy).Contents (Elt F) → (⟨S500000, .i32⟩ : BufTy).Contents (Elt F)) ]

/-- `@argsort` at its call: the iota, and the two results of the stable sort of `(keys, iota)` by key. -/
abbrev opsB : List (HloOp τ sig (Elt F)) :=
  [StableHlo.TRef.nullary main_call0.v0 (iotaInDim S500000 32 0),
    StableHlo.TRef.binary (StableHlo.TRef.of main_v37 : StableHlo.TRef sig ⟨S500000, .i32⟩) main_call0.v0 main_call0.v1_0 (fun x y => (Host.sort2 S500000 0 comparator_i32_i32_d0 x y).1),
    StableHlo.TRef.binary (StableHlo.TRef.of main_v37 : StableHlo.TRef sig ⟨S500000, .i32⟩) main_call0.v0 main_call0.v1_1 (fun x y => (Host.sort2 S500000 0 comparator_i32_i32_d0 x y).2) ]

/-- The keys read in sorted order and the flags where the sorted key changes (through `%50`). -/
abbrev opsC1 : List (HloOp τ sig (Elt F)) :=
  [StableHlo.nullary main_c_4 (constantI S_ 32 0#32),
    StableHlo.unary main_c_4 main_v39 (broadcastInDim S500000 ![] bcast_S_S500000 : (⟨S_, .i32⟩ : BufTy).Contents (Elt F) → (⟨S500000, .i32⟩ : BufTy).Contents (Elt F)),
    StableHlo.binary main_v38 main_v39 main_v40 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 500000#32),
    StableHlo.unary main_c_5 main_v41 (broadcastInDim S500000 ![] bcast_S_S500000 : (⟨S_, .i32⟩ : BufTy).Contents (Elt F) → (⟨S500000, .i32⟩ : BufTy).Contents (Elt F)),
    StableHlo.binary main_v38 main_v41 main_v42 (addi : (⟨S500000, .i32⟩ : BufTy).Contents (Elt F) → (⟨S500000, .i32⟩ : BufTy).Contents (Elt F) → (⟨S500000, .i32⟩ : BufTy).Contents (Elt F)),
    StableHlo.ternary main_v40 main_v42 main_v38 main_v43 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v43 main_v44 (broadcastInDim S500000x1 ![0] bcast_S500000_S500000x1_0 : (⟨S500000, .i32⟩ : BufTy).Contents (Elt F) → (⟨S500000x1, .i32⟩ : BufTy).Contents (Elt F)),
    StableHlo.binary main_v37 main_v44 main_v45 ((fun x i => Host.gather gather_S500000_S500000x1_S500000_n_0_n_n_0_1_1 x i) : (⟨S500000, .i32⟩ : BufTy).Contents (Elt F) → (⟨S500000x1, .i32⟩ : BufTy).Contents (Elt F) → (⟨S500000, .i32⟩ : BufTy).Contents (Elt F)),
    StableHlo.nullary main_c_6 (constantI S_ 32 0#32),
    StableHlo.unary main_c_6 main_v46 (broadcastInDim S1 ![] bcast_S_S1 : (⟨S_, .i32⟩ : BufTy).Contents (Elt F) → (⟨S1, .i32⟩ : BufTy).Contents (Elt F)),
    StableHlo.unary main_v45 main_v47 ((extractStridedSlice S499999 ![1] · slices_S500000_S499999_1) : (⟨S500000, .i32⟩ : BufTy).Contents (Elt F) → (⟨S499999, .i32⟩ : BufTy).Contents (Elt F)),
    StableHlo.unary main_v45 main_v48 ((extractStridedSlice S499999 ![0] · slices_S500000_S499999_0) : (⟨S500000, .i32⟩ : BufTy).Contents (Elt F) → (⟨S499999, .i32⟩ : BufTy).Contents (Elt F)),
    StableHlo.binary main_v47 main_v48 main_v49 (cmpi .ne : (⟨S499999, .i32⟩ : BufTy).Contents (Elt F) → (⟨S499999, .i32⟩ : BufTy).Contents (Elt F) → (⟨S499999, .i1⟩ : BufTy).Contents (Elt F)),
    StableHlo.unary main_v49 main_v50 ((extui 32 · natLt_1_32) : (⟨S499999, .i1⟩ : BufTy).Contents (Elt F) → (⟨S499999, .i32⟩ : BufTy).Contents (Elt F)) ]

/-- The flags joined behind a leading zero, their running count (`@cumsum`, `@cumsum_0` at their calls), and the counts written back through the order: each point's voxel number `%60`. -/
abbrev opsC2 : List (HloOp τ sig (Elt F)) :=
  [StableHlo.binary main_v46 main_v50 main_v51 ((fun a b => concatenate S500000 0 [⟨S1, a⟩, ⟨S499999, b⟩] concatenates_S1_S499999_S500000_d0) : (⟨S1, .i32⟩ : BufTy).Contents (Elt F) → (⟨S499999, .i32⟩ : BufTy).Contents (Elt F) → (⟨S500000, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (StableHlo.TRef.of main_v51 : StableHlo.TRef sig ⟨S500000, .i32⟩) main_call1.call0.v0 main_call1.call0.v1 (fun x v => Host.reduceWindow IntOp.addi ![500000] ![1] ![499999] ![0] x v reduceWindows_S500000_S500000_w500000s1p499999_0 h_S_),
    StableHlo.nullary main_c_7 (constantI S_ 32 0#32),
    StableHlo.unary main_c_7 main_v53 (broadcastInDim S500000 ![] bcast_S_S500000 : (⟨S_, .i32⟩ : BufTy).Contents (Elt F) → (⟨S500000, .i32⟩ : BufTy).Contents (Elt F)),
    StableHlo.nullary main_c_8 (constantI S_ 32 0#32),
    StableHlo.unary main_c_8 main_v54 (broadcastInDim S500000 ![] bcast_S_S500000 : (⟨S_, .i32⟩ : BufTy).Contents (Elt F) → (⟨S500000, .i32⟩ : BufTy).Contents (Elt F)),
    StableHlo.binary main_v38 main_v54 main_v55 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 500000#32),
    StableHlo.unary main_c_9 main_v56 (broadcastInDim S500000 ![] bcast_S_S500000 : (⟨S_, .i32⟩ : BufTy).Contents (Elt F) → (⟨S500000, .i32⟩ : BufTy).Contents (Elt F)),
    StableHlo.binary main_v38 main_v56 main_v57 (addi : (⟨S500000, .i32⟩ : BufTy).Contents (Elt F) → (⟨S500000, .i32⟩ : BufTy).Contents (Elt F) → (⟨S500000, .i32⟩ : BufTy).Contents (Elt F)),
    StableHlo.ternary main_v55 main_v57 main_v38 main_v58 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v58 main_v59 (broadcastInDim S500000x1 ![0] bcast_S500000_S500000x1_0 : (⟨S500000, .i32⟩ : BufTy).Contents (Elt F) → (⟨S500000x1, .i32⟩ : BufTy).Contents (Elt F)),
    StableHlo.ternary main_v53 main_v59 main_v52 main_v60 ((fun x i u => Host.scatter scatter_S500000_S500000x1_S500000_n_0_0_1 (fun _ b => b) x i u) : (⟨S500000, .i32⟩ : BufTy).Contents (Elt F) → (⟨S500000x1, .i32⟩ : BufTy).Contents (Elt F) → (⟨S500000, .i32⟩ : BufTy).Contents (Elt F) → (⟨S500000, .i32⟩ : BufTy).Contents (Elt F)) ]

/-- The voxel counts and feature sums, the averages, the two-layer perceptron (`@relu` at its call) and the read-back `%87`. -/
abbrev opsD : List (HloOp τ sig (Elt F)) :=
  [StableHlo.nullary main_cst_10 (constant S_ .f32 0x3F800000#32),
    StableHlo.unary main_cst_10 main_v61 (broadcastInDim S500000 ![] bcast_S_S500000 : (⟨S_, .f32⟩ : BufTy).Contents (Elt F) → (⟨S500000, .f32⟩ : BufTy).Contents (Elt F)),
    StableHlo.nullary main_cst_11 (constant S_ .f32 0x00000000#32),
    StableHlo.unary main_cst_11 main_v62 (broadcastInDim S500000 ![] bcast_S_S500000 : (⟨S_, .f32⟩ : BufTy).Contents (Elt F) → (⟨S500000, .f32⟩ : BufTy).Contents (Elt F)),
    StableHlo.unary main_v60 main_v63 (broadcastInDim S500000x1 ![0] bcast_S500000_S500000x1_0 : (⟨S500000, .i32⟩ : BufTy).Contents (Elt F) → (⟨S500000x1, .i32⟩ : BufTy).Contents (Elt F)),
    StableHlo.ternary main_v62 main_v63 main_v61 main_v64 ((fun x i u => Host.scatterAdd scatter_S500000_S500000x1_S500000_n_0_0_1 x i u) : (⟨S500000, .f32⟩ : BufTy).Contents (Elt F) → (⟨S500000x1, .i32⟩ : BufTy).Contents (Elt F) → (⟨S500000, .f32⟩ : BufTy).Contents (Elt F) → (⟨S500000, .f32⟩ : BufTy).Contents (Elt F)),
    StableHlo.nullary main_cst_12 (constant S_ .f32 0x00000000#32),
    StableHlo.unary main_cst_12 main_v65 (broadcastInDim S500000x1 ![] bcast_S_S500000x1 : (⟨S_, .f32⟩ : BufTy).Contents (Elt F) → (⟨S500000x1, .f32⟩ : BufTy).Contents (Elt F)),
    StableHlo.unary main_v60 main_v66 (broadcastInDim S500000x1 ![0] bcast_S500000_S500000x1_0 : (⟨S500000, .i32⟩ : BufTy).Contents (Elt F) → (⟨S500000x1, .i32⟩ : BufTy).Contents (Elt F)),
    StableHlo.ternary main_v65 main_v66 main_v5 main_v67 ((fun x i u => Host.scatterAdd scatter_S500000x1_S500000x1_S500000x1_1_0_0_1 x i u) : (⟨S500000x1, .f32⟩ : BufTy).Contents (Elt F) → (⟨S500000x1, .i32⟩ : BufTy).Contents (Elt F) → (⟨S500000x1, .f32⟩ : BufTy).Contents (Elt F) → (⟨S500000x1, .f32⟩ : BufTy).Contents (Elt F)),
    StableHlo.nullary main_cst_13 (constant S_ .f32 0x3F800000#32),
    StableHlo.unary main_cst_13 main_v68 (broadcastInDim S500000 ![] bcast_S_S500000 : (⟨S_, .f32⟩ : BufTy).Contents (Elt F) → (⟨S500000, .f32⟩ : BufTy).Contents (Elt F)),
    StableHlo.binary main_v64 main_v68 main_v69 (maximumf : (⟨S500000, .f32⟩ : BufTy).Contents (Elt F) → (⟨S500000, .f32⟩ : BufTy).Contents (Elt F) → (⟨S500000, .f32⟩ : BufTy).Contents (Elt F)),
    StableHlo.unary main_v69 main_v70 (broadcastInDim S500000x1 ![0] bcast_S500000_S500000x1_0 : (⟨S500000, .f32⟩ : BufTy).Contents (Elt F) → (⟨S500000x1, .f32⟩ : BufTy).Contents (Elt F)),
    StableHlo.binary main_v67 main_v70 main_v71 (Host.divf : (⟨S500000x1, .f32⟩ : BufTy).Contents (Elt F) → (⟨S500000x1, .f32⟩ : BufTy).Contents (Elt F) → (⟨S500000x1, .f32⟩ : BufTy).Contents (Elt F)),
    StableHlo.binary main_v71 main_arg1 main_v72 ((fun l r => Host.dotGeneral dot_S500000x1_S1x64_S500000x64_1_0_0_1_n_n none l r) : (⟨S500000x1, .f32⟩ : BufTy).Contents (Elt F) → (⟨S1x64, .f32⟩ : BufTy).Contents (Elt F) → (⟨S500000x64, .f32⟩ : BufTy).Contents (Elt F)),
    StableHlo.unary main_arg2 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S500000x64 ![0, 1] bcast_S1x64_S500000x64_0_1 : (⟨S1x64, .f32⟩ : BufTy).Contents (Elt F) → (⟨S500000x64, .f32⟩ : BufTy).Contents (Elt F)),
    StableHlo.binary main_v72 main_v74 main_v75 (addf : (⟨S500000x64, .f32⟩ : BufTy).Contents (Elt F) → (⟨S500000x64, .f32⟩ : BufTy).Contents (Elt F) → (⟨S500000x64, .f32⟩ : BufTy).Contents (Elt F)),
    StableHlo.TRef.nullary main_call2.cst (constant S_ .f32 0x00000000#32),
    StableHlo.TRef.unary main_call2.cst main_call2.v0 (broadcastInDim S500000x64 ![] bcast_S_S500000x64),
    StableHlo.TRef.binary (StableHlo.TRef.of main_v75 : StableHlo.TRef sig ⟨S500000x64, .f32⟩) main_call2.v0 main_call2.v1 maximumf,
    StableHlo.binary main_v76 main_arg3 main_v77 ((fun l r => Host.dotGeneral dot_S500000x64_S64x1_S500000x1_1_0_0_1_n_n none l r) : (⟨S500000x64, .f32⟩ : BufTy).Contents (Elt F) → (⟨S64x1, .f32⟩ : BufTy).Contents (Elt F) → (⟨S500000x1, .f32⟩ : BufTy).Contents (Elt F)),
    StableHlo.unary main_arg4 main_v78 (broadcastInDim S1x1 ![1] bcast_S1_S1x1_1 : (⟨S1, .f32⟩ : BufTy).Contents (Elt F) → (⟨S1x1, .f32⟩ : BufTy).Contents (Elt F)),
    StableHlo.unary main_v78 main_v79 (broadcastInDim S500000x1 ![0, 1] bcast_S1x1_S500000x1_0_1 : (⟨S1x1, .f32⟩ : BufTy).Contents (Elt F) → (⟨S500000x1, .f32⟩ : BufTy).Contents (Elt F)),
    StableHlo.binary main_v77 main_v79 main_v80 (addf : (⟨S500000x1, .f32⟩ : BufTy).Contents (Elt F) → (⟨S500000x1, .f32⟩ : BufTy).Contents (Elt F) → (⟨S500000x1, .f32⟩ : BufTy).Contents (Elt F)),
    StableHlo.nullary main_c_14 (constantI S_ 32 0#32),
    StableHlo.unary main_c_14 main_v81 (broadcastInDim S500000 ![] bcast_S_S500000 : (⟨S_, .i32⟩ : BufTy).Contents (Elt F) → (⟨S500000, .i32⟩ : BufTy).Contents (Elt F)),
    StableHlo.binary main_v60 main_v81 main_v82 (cmpi .slt : (⟨S500000, .i32⟩ : BufTy).Contents (Elt F) → (⟨S500000, .i32⟩ : BufTy).Contents (Elt F) → (⟨S500000, .i1⟩ : BufTy).Contents (Elt F)),
    StableHlo.nullary main_c_15 (constantI S_ 32 500000#32),
    StableHlo.unary main_c_15 main_v83 (broadcastInDim S500000 ![] bcast_S_S500000 : (⟨S_, .i32⟩ : BufTy).Contents (Elt F) → (⟨S500000, .i32⟩ : BufTy).Contents (Elt F)),
    StableHlo.binary main_v60 main_v83 main_v84 (addi : (⟨S500000, .i32⟩ : BufTy).Contents (Elt F) → (⟨S500000, .i32⟩ : BufTy).Contents (Elt F) → (⟨S500000, .i32⟩ : BufTy).Contents (Elt F)),
    StableHlo.ternary main_v82 main_v84 main_v60 main_v85 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v85 main_v86 (broadcastInDim S500000x1 ![0] bcast_S500000_S500000x1_0 : (⟨S500000, .i32⟩ : BufTy).Contents (Elt F) → (⟨S500000x1, .i32⟩ : BufTy).Contents (Elt F)),
    StableHlo.binary main_v80 main_v86 main_v87 ((fun x i => Host.gather gather_S500000x1_S500000x1_S500000x1_1_0_n_n_0_1_11 x i) : (⟨S500000x1, .f32⟩ : BufTy).Contents (Elt F) → (⟨S500000x1, .i32⟩ : BufTy).Contents (Elt F) → (⟨S500000x1, .f32⟩ : BufTy).Contents (Elt F)) ]

/-- The second result `%90`: the quantised coordinates times the quantum. -/
abbrev opsE : List (HloOp τ sig (Elt F)) :=
  [StableHlo.unary main_cst main_v88 (broadcastInDim S1x4 ![1] bcast_S4_S1x4_1 : (⟨S4, .f32⟩ : BufTy).Contents (Elt F) → (⟨S1x4, .f32⟩ : BufTy).Contents (Elt F)),
    StableHlo.unary main_v88 main_v89 (broadcastInDim S500000x4 ![0, 1] bcast_S1x4_S500000x4_0_1 : (⟨S1x4, .f32⟩ : BufTy).Contents (Elt F) → (⟨S500000x4, .f32⟩ : BufTy).Contents (Elt F)),
    StableHlo.binary main_v2 main_v89 main_v90 (mulf : (⟨S500000x4, .f32⟩ : BufTy).Contents (Elt F) → (⟨S500000x4, .f32⟩ : BufTy).Contents (Elt F) → (⟨S500000x4, .f32⟩ : BufTy).Contents (Elt F)) ]

/-- @main's 115 operations: statements 1 … 60 are the first three stretches, 61 … 110 the last three. -/
abbrev ops : List (HloOp τ sig (Elt F)) := (opsA ++ (opsB ++ opsC1)) ++ (opsC2 ++ (opsD ++ opsE))

/-! ## The program is that line -/

-- one bind per statement is re-associated: a recursion as deep as the line is long
set_option maxRecDepth 4096 in
set_option maxHeartbeats 4000000 in
/-- Statements 1 … 60: `@argsort`'s definition unfolded at its call and the record at its fields, both sides are one
    chain of `hlo` steps once sequencing is reassociated. -/
theorem part0_eq (c : Dev nD) : main_part0 (F := F) c = seq (opsA ++ (opsB ++ opsC1)) := by
  simp only [main_part0, fn_argsort.body, List.cons_append, List.nil_append, seq, bind_assoc, pure_bind]
  rfl

set_option maxRecDepth 4096 in
set_option maxHeartbeats 4000000 in
/-- Statements 61 … 110: `@cumsum`, `@cumsum_0` and `@relu` unfolded at their calls. -/
theorem part1_eq (c : Dev nD) : main_part1 (F := F) c = seq (opsC2 ++ (opsD ++ opsE)) := by
  simp only [main_part1, fn_cumsum.body, fn_cumsum_0.body, fn_relu.body, List.cons_append, List.nil_append, seq, bind_assoc, pure_bind]

/-- @main runs the two windows in order: the concatenated line. -/
theorem main_eq (c : Dev nD) : main (F := F) c = seq ops := by
  rw [seq_append, ← part0_eq c]
  simp only [main, ← part1_eq c]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only and determines its results -/

theorem okA : (opsA : List (HloOp τ sig (Elt F))).Forall fun op => op.bufs ⊆ tcRefs τ sig ∧ op.fresh = ∅ :=
  ⟨⟨nullary_bufs_sub .., rfl⟩, ⟨unary_bufs_sub .., rfl⟩, ⟨unary_bufs_sub .., rfl⟩, ⟨binary_bufs_sub .., rfl⟩,
    ⟨nullary_bufs_sub .., rfl⟩, ⟨unary_bufs_sub .., rfl⟩, ⟨nullary_bufs_sub .., rfl⟩, ⟨unary_bufs_sub .., rfl⟩,
    ⟨binary_bufs_sub .., rfl⟩, ⟨unary_bufs_sub .., rfl⟩, ⟨unary_bufs_sub .., rfl⟩, ⟨nullary_bufs_sub .., rfl⟩,
    ⟨binary_bufs_sub .., rfl⟩, ⟨unary_bufs_sub .., rfl⟩, ⟨unary_bufs_sub .., rfl⟩, ⟨binary_bufs_sub .., rfl⟩,
    ⟨nullary_bufs_sub .., rfl⟩, ⟨binary_bufs_sub .., rfl⟩, ⟨nullary_bufs_sub .., rfl⟩, ⟨unary_bufs_sub .., rfl⟩,
    ⟨binary_bufs_sub .., rfl⟩, ⟨unary_bufs_sub .., rfl⟩, ⟨reshape_bufs_sub .., rfl⟩, ⟨unary_bufs_sub .., rfl⟩,
    ⟨reshape_bufs_sub .., rfl⟩, ⟨unary_bufs_sub .., rfl⟩, ⟨binary_bufs_sub .., rfl⟩, ⟨unary_bufs_sub .., rfl⟩,
    ⟨reshape_bufs_sub .., rfl⟩, ⟨binary_bufs_sub .., rfl⟩, ⟨unary_bufs_sub .., rfl⟩, ⟨reshape_bufs_sub .., rfl⟩,
    ⟨unary_bufs_sub .., rfl⟩, ⟨binary_bufs_sub .., rfl⟩, ⟨unary_bufs_sub .., rfl⟩, ⟨reshape_bufs_sub .., rfl⟩,
    ⟨binary_bufs_sub .., rfl⟩, ⟨unary_bufs_sub .., rfl⟩, ⟨reshape_bufs_sub .., rfl⟩, ⟨unary_bufs_sub .., rfl⟩,
    ⟨binary_bufs_sub .., rfl⟩, ⟨unary_bufs_sub .., rfl⟩, ⟨reshape_bufs_sub .., rfl⟩, ⟨binary_bufs_sub .., rfl⟩⟩

theorem okB : (opsB : List (HloOp τ sig (Elt F))).Forall fun op => op.bufs ⊆ tcRefs τ sig ∧ op.fresh = ∅ :=
  ⟨⟨nullary_bufs_sub .., rfl⟩, ⟨binary_bufs_sub .., rfl⟩, ⟨binary_bufs_sub .., rfl⟩⟩

theorem okC1 : (opsC1 : List (HloOp τ sig (Elt F))).Forall fun op => op.bufs ⊆ tcRefs τ sig ∧ op.fresh = ∅ :=
  ⟨⟨nullary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨ternary_bufs_sub .., rfl⟩, ⟨unary_bufs_sub .., rfl⟩,
    ⟨binary_bufs_sub .., rfl⟩, ⟨nullary_bufs_sub .., rfl⟩, ⟨unary_bufs_sub .., rfl⟩, ⟨unary_bufs_sub .., rfl⟩,
    ⟨unary_bufs_sub .., rfl⟩, ⟨binary_bufs_sub .., rfl⟩, ⟨unary_bufs_sub .., rfl⟩⟩

theorem okC2 : (opsC2 : List (HloOp τ sig (Elt F))).Forall fun op => op.bufs ⊆ tcRefs τ sig ∧ op.fresh = ∅ :=
  ⟨⟨binary_bufs_sub .., rfl⟩, ⟨nullary_bufs_sub .., rfl⟩, ⟨unary_bufs_sub .., rfl⟩, ⟨binary_bufs_sub .., rfl⟩,
    ⟨nullary_bufs_sub .., rfl⟩, ⟨unary_bufs_sub .., rfl⟩, ⟨nullary_bufs_sub .., rfl⟩, ⟨unary_bufs_sub .., rfl⟩,
    ⟨binary_bufs_sub .., rfl⟩, ⟨nullary_bufs_sub .., rfl⟩, ⟨unary_bufs_sub .., rfl⟩, ⟨binary_bufs_sub .., rfl⟩,
    ⟨ternary_bufs_sub .., rfl⟩, ⟨unary_bufs_sub .., rfl⟩, ⟨ternary_bufs_sub .., rfl⟩⟩

theorem okD : (opsD : List (HloOp τ sig (Elt F))).Forall fun op => op.bufs ⊆ tcRefs τ sig ∧ op.fresh = ∅ :=
  ⟨⟨nullary_bufs_sub .., rfl⟩, ⟨unary_bufs_sub .., rfl⟩, ⟨nullary_bufs_sub .., rfl⟩, ⟨unary_bufs_sub .., rfl⟩,
    ⟨unary_bufs_sub .., rfl⟩, ⟨ternary_bufs_sub .., rfl⟩, ⟨nullary_bufs_sub .., rfl⟩, ⟨unary_bufs_sub .., rfl⟩,
    ⟨unary_bufs_sub .., rfl⟩, ⟨ternary_bufs_sub .., rfl⟩, ⟨nullary_bufs_sub .., rfl⟩, ⟨unary_bufs_sub .., rfl⟩,
    ⟨binary_bufs_sub .., rfl⟩, ⟨unary_bufs_sub .., rfl⟩, ⟨binary_bufs_sub .., rfl⟩, ⟨binary_bufs_sub .., rfl⟩,
    ⟨unary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨binary_bufs_sub .., rfl⟩, ⟨unary_bufs_sub .., rfl⟩,
    ⟨unary_bufs_sub .., rfl⟩, ⟨binary_bufs_sub .., rfl⟩, ⟨nullary_bufs_sub .., rfl⟩, ⟨unary_bufs_sub .., rfl⟩,
    ⟨binary_bufs_sub .., rfl⟩, ⟨nullary_bufs_sub .., rfl⟩, ⟨unary_bufs_sub .., rfl⟩, ⟨binary_bufs_sub .., rfl⟩,
    ⟨ternary_bufs_sub .., rfl⟩, ⟨unary_bufs_sub .., rfl⟩, ⟨binary_bufs_sub .., rfl⟩⟩

theorem okE : (opsE : List (HloOp τ sig (Elt F))).Forall fun op => op.bufs ⊆ tcRefs τ sig ∧ op.fresh = ∅ :=
  ⟨⟨unary_bufs_sub .., rfl⟩, ⟨unary_bufs_sub .., rfl⟩, ⟨binary_bufs_sub .., rfl⟩⟩

theorem ops_ok (op : HloOp τ sig (Elt F)) (h : op ∈ (ops : List (HloOp τ sig (Elt F)))) :
    op.bufs ⊆ tcRefs τ sig ∧ op.fresh = ∅ := by
  simp only [List.mem_append] at h
  rcases h with (h | h | h) | (h | h | h)
  exacts [List.forall_iff_forall_mem.mp okA op h, List.forall_iff_forall_mem.mp okB op h, List.forall_iff_forall_mem.mp okC1 op h,
    List.forall_iff_forall_mem.mp okC2 op h, List.forall_iff_forall_mem.mp okD op h, List.forall_iff_forall_mem.mp okE op h]

theorem ops_sub : (ops : List (HloOp τ sig (Elt F))).Forall fun op => op.bufs ⊆ tcRefs τ sig :=
  List.forall_iff_forall_mem.mpr fun op h => (ops_ok op h).1

/-! ## The contents after two lines run in order -/

theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The change flags behind their leading entry: `boundaries` with its two parts as parameters. -/
def joined (z : IVec S1 32) (t : IVec S499999 32) : IVec S500000 32 :=
  concatenate S500000 0 [⟨S1, z⟩, ⟨S499999, t⟩] concatenates_S1_S499999_S500000_d0

/-- The tail of the change flags: `1` exactly where the sorted key differs from the one before. -/
def flagsTail (sk : IVec S500000 32) : IVec S499999 32 :=
  extui 32 (cmpi .ne (extractStridedSlice S499999 ![1] sk slices_S500000_S499999_1)
    (extractStridedSlice S499999 ![0] sk slices_S500000_S499999_0)) natLt_1_32

/-! ## The typed references' transports are the identity

At a literal reference a typed reference's transport of contents (along the equation between the buffer's type and
the value's) is the identity. Stated once per reference of `@cumsum_0`'s call, so that the transports around its
window sum are rewritten away and never compared against the sum itself. -/

theorem cast_v52 (v : IVec S500000 32) : (main_call1.call0.v1).toBuf (Val := Elt F) v = v := rfl
theorem cast_v51 (v : IVec S500000 32) :
    (StableHlo.TRef.of main_v51 : StableHlo.TRef sig ⟨S500000, .i32⟩).ofBuf (Val := Elt F) v = v := rfl
theorem cast_c0_to (v : IVec S_ 32) : (main_call1.call0.v0).toBuf (Val := Elt F) v = v := rfl
theorem cast_c0_of (v : IVec S_ 32) : (main_call1.call0.v0).ofBuf (Val := Elt F) v = v := rfl
theorem cast_cc_to (v : IVec S_ 32) : (main_call1.call0.c).toBuf (Val := Elt F) v = v := rfl
theorem cast_cc_of (v : IVec S_ 32) : (main_call1.call0.c).ofBuf (Val := Elt F) v = v := rfl

/-! ## Each stretch read back over an arbitrary valuation

The heavy host operations stay folded: each equation is between the same operation at the same operands, and their
bodies (folds and searches over 500000 elements) are never looked into. -/

attribute [local irreducible] Host.sort2 Host.reduce Host.reduceWindow Host.gather Host.scatter Host.scatterAdd
  concatenate

section Stretches
set_option maxRecDepth 8192
set_option maxHeartbeats 1600000

theorem A_v37 (W : Valuation τ sig (Elt F)) :
    after opsA W (main_v37 : DevRef τ sig) = keysOf (W (main_arg0 : DevRef τ sig)) := by
  after_results_simp
  rfl
theorem A_v2 (W : Valuation τ sig (Elt F)) :
    after opsA W (main_v2 : DevRef τ sig) = coords (W (main_arg0 : DevRef τ sig)) := by
  after_results_simp
  rfl
theorem A_v5 (W : Valuation τ sig (Elt F)) :
    after opsA W (main_v5 : DevRef τ sig) = (feats : FVec F S500000x1 .f32) := by
  after_results_simp
  rfl
theorem A_cst (W : Valuation τ sig (Elt F)) :
    after opsA W (main_cst : DevRef τ sig) = (constant S4 .f32 0x3DCCCCCD#32 : FVec F S4 .f32) := by
  after_results_simp
theorem A_arg0 (W : Valuation τ sig (Elt F)) : after opsA W (main_arg0 : DevRef τ sig) = W (main_arg0 : DevRef τ sig) := by
  after_results_simp
theorem A_arg1 (W : Valuation τ sig (Elt F)) : after opsA W (main_arg1 : DevRef τ sig) = W (main_arg1 : DevRef τ sig) := by
  after_results_simp
theorem A_arg2 (W : Valuation τ sig (Elt F)) : after opsA W (main_arg2 : DevRef τ sig) = W (main_arg2 : DevRef τ sig) := by
  after_results_simp
theorem A_arg3 (W : Valuation τ sig (Elt F)) : after opsA W (main_arg3 : DevRef τ sig) = W (main_arg3 : DevRef τ sig) := by
  after_results_simp
theorem A_arg4 (W : Valuation τ sig (Elt F)) : after opsA W (main_arg4 : DevRef τ sig) = W (main_arg4 : DevRef τ sig) := by
  after_results_simp

theorem B_v38 (W : Valuation τ sig (Elt F)) :
    after opsB W (main_v38 : DevRef τ sig) = orderOf (W (main_v37 : DevRef τ sig)) := by
  after_results_simp
  rfl
theorem B_v37 (W : Valuation τ sig (Elt F)) : after opsB W (main_v37 : DevRef τ sig) = W (main_v37 : DevRef τ sig) := by
  after_results_simp
theorem B_v2 (W : Valuation τ sig (Elt F)) : after opsB W (main_v2 : DevRef τ sig) = W (main_v2 : DevRef τ sig) := by
  after_results_simp
theorem B_v5 (W : Valuation τ sig (Elt F)) : after opsB W (main_v5 : DevRef τ sig) = W (main_v5 : DevRef τ sig) := by
  after_results_simp
theorem B_cst (W : Valuation τ sig (Elt F)) : after opsB W (main_cst : DevRef τ sig) = W (main_cst : DevRef τ sig) := by
  after_results_simp
theorem B_arg0 (W : Valuation τ sig (Elt F)) : after opsB W (main_arg0 : DevRef τ sig) = W (main_arg0 : DevRef τ sig) := by
  after_results_simp
theorem B_arg1 (W : Valuation τ sig (Elt F)) : after opsB W (main_arg1 : DevRef τ sig) = W (main_arg1 : DevRef τ sig) := by
  after_results_simp
theorem B_arg2 (W : Valuation τ sig (Elt F)) : after opsB W (main_arg2 : DevRef τ sig) = W (main_arg2 : DevRef τ sig) := by
  after_results_simp
theorem B_arg3 (W : Valuation τ sig (Elt F)) : after opsB W (main_arg3 : DevRef τ sig) = W (main_arg3 : DevRef τ sig) := by
  after_results_simp
theorem B_arg4 (W : Valuation τ sig (Elt F)) : after opsB W (main_arg4 : DevRef τ sig) = W (main_arg4 : DevRef τ sig) := by
  after_results_simp

theorem C1_v50 (W : Valuation τ sig (Elt F)) :
    after opsC1 W (main_v50 : DevRef τ sig) = flagsTail (sortedKeys (W (main_v37 : DevRef τ sig)) (W (main_v38 : DevRef τ sig))) := by
  after_results_simp
  rfl
theorem C1_v46 (W : Valuation τ sig (Elt F)) :
    after opsC1 W (main_v46 : DevRef τ sig) = (broadcastInDim S1 ![] bcast_S_S1 (constantI S_ 32 0#32) : IVec S1 32) := by
  after_results_simp
theorem C1_v38 (W : Valuation τ sig (Elt F)) : after opsC1 W (main_v38 : DevRef τ sig) = W (main_v38 : DevRef τ sig) := by
  after_results_simp
theorem C1_v2 (W : Valuation τ sig (Elt F)) : after opsC1 W (main_v2 : DevRef τ sig) = W (main_v2 : DevRef τ sig) := by
  after_results_simp
theorem C1_v5 (W : Valuation τ sig (Elt F)) : after opsC1 W (main_v5 : DevRef τ sig) = W (main_v5 : DevRef τ sig) := by
  after_results_simp
theorem C1_cst (W : Valuation τ sig (Elt F)) : after opsC1 W (main_cst : DevRef τ sig) = W (main_cst : DevRef τ sig) := by
  after_results_simp
theorem C1_arg0 (W : Valuation τ sig (Elt F)) : after opsC1 W (main_arg0 : DevRef τ sig) = W (main_arg0 : DevRef τ sig) := by
  after_results_simp
theorem C1_arg1 (W : Valuation τ sig (Elt F)) : after opsC1 W (main_arg1 : DevRef τ sig) = W (main_arg1 : DevRef τ sig) := by
  after_results_simp
theorem C1_arg2 (W : Valuation τ sig (Elt F)) : after opsC1 W (main_arg2 : DevRef τ sig) = W (main_arg2 : DevRef τ sig) := by
  after_results_simp
theorem C1_arg3 (W : Valuation τ sig (Elt F)) : after opsC1 W (main_arg3 : DevRef τ sig) = W (main_arg3 : DevRef τ sig) := by
  after_results_simp
theorem C1_arg4 (W : Valuation τ sig (Elt F)) : after opsC1 W (main_arg4 : DevRef τ sig) = W (main_arg4 : DevRef τ sig) := by
  after_results_simp

theorem C2_v60 (W : Valuation τ sig (Elt F)) :
    after opsC2 W (main_v60 : DevRef τ sig) = invOf (W (main_v38 : DevRef τ sig)) (ranks (joined (W (main_v46 : DevRef τ sig)) (W (main_v50 : DevRef τ sig)))) := by
  after_results_simp
  simp only [cast_v52, cast_v51, cast_c0_to, cast_c0_of, cast_cc_to, cast_cc_of]
  rfl
theorem C2_v2 (W : Valuation τ sig (Elt F)) : after opsC2 W (main_v2 : DevRef τ sig) = W (main_v2 : DevRef τ sig) := by
  after_results_simp
theorem C2_v5 (W : Valuation τ sig (Elt F)) : after opsC2 W (main_v5 : DevRef τ sig) = W (main_v5 : DevRef τ sig) := by
  after_results_simp
theorem C2_cst (W : Valuation τ sig (Elt F)) : after opsC2 W (main_cst : DevRef τ sig) = W (main_cst : DevRef τ sig) := by
  after_results_simp
theorem C2_arg0 (W : Valuation τ sig (Elt F)) : after opsC2 W (main_arg0 : DevRef τ sig) = W (main_arg0 : DevRef τ sig) := by
  after_results_simp
theorem C2_arg1 (W : Valuation τ sig (Elt F)) : after opsC2 W (main_arg1 : DevRef τ sig) = W (main_arg1 : DevRef τ sig) := by
  after_results_simp
theorem C2_arg2 (W : Valuation τ sig (Elt F)) : after opsC2 W (main_arg2 : DevRef τ sig) = W (main_arg2 : DevRef τ sig) := by
  after_results_simp
theorem C2_arg3 (W : Valuation τ sig (Elt F)) : after opsC2 W (main_arg3 : DevRef τ sig) = W (main_arg3 : DevRef τ sig) := by
  after_results_simp
theorem C2_arg4 (W : Valuation τ sig (Elt F)) : after opsC2 W (main_arg4 : DevRef τ sig) = W (main_arg4 : DevRef τ sig) := by
  after_results_simp

theorem D_v87 (W : Valuation τ sig (Elt F)) (h5 : W (main_v5 : DevRef τ sig) = (feats : FVec F S500000x1 .f32)) :
    after opsD W (main_v87 : DevRef τ sig) = featOf (W (main_v60 : DevRef τ sig)) (W (main_arg1 : DevRef τ sig)) (W (main_arg2 : DevRef τ sig)) (W (main_arg3 : DevRef τ sig)) (W (main_arg4 : DevRef τ sig)) := by
  after_results_simp
  rw [h5]
  rfl
theorem D_v2 (W : Valuation τ sig (Elt F)) : after opsD W (main_v2 : DevRef τ sig) = W (main_v2 : DevRef τ sig) := by
  after_results_simp
theorem D_cst (W : Valuation τ sig (Elt F)) : after opsD W (main_cst : DevRef τ sig) = W (main_cst : DevRef τ sig) := by
  after_results_simp
theorem D_arg0 (W : Valuation τ sig (Elt F)) : after opsD W (main_arg0 : DevRef τ sig) = W (main_arg0 : DevRef τ sig) := by
  after_results_simp
theorem D_arg1 (W : Valuation τ sig (Elt F)) : after opsD W (main_arg1 : DevRef τ sig) = W (main_arg1 : DevRef τ sig) := by
  after_results_simp
theorem D_arg2 (W : Valuation τ sig (Elt F)) : after opsD W (main_arg2 : DevRef τ sig) = W (main_arg2 : DevRef τ sig) := by
  after_results_simp
theorem D_arg3 (W : Valuation τ sig (Elt F)) : after opsD W (main_arg3 : DevRef τ sig) = W (main_arg3 : DevRef τ sig) := by
  after_results_simp
theorem D_arg4 (W : Valuation τ sig (Elt F)) : after opsD W (main_arg4 : DevRef τ sig) = W (main_arg4 : DevRef τ sig) := by
  after_results_simp

theorem E_v90 (W : Valuation τ sig (Elt F)) :
    after opsE W (main_v90 : DevRef τ sig) = mulf (W (main_v2 : DevRef τ sig)) (broadcastInDim S500000x4 ![0, 1] bcast_S1x4_S500000x4_0_1 (broadcastInDim S1x4 ![1] bcast_S4_S1x4_1 (W (main_cst : DevRef τ sig)))) := by
  after_results_simp
theorem E_v87 (W : Valuation τ sig (Elt F)) : after opsE W (main_v87 : DevRef τ sig) = W (main_v87 : DevRef τ sig) := by
  after_results_simp
theorem E_arg0 (W : Valuation τ sig (Elt F)) : after opsE W (main_arg0 : DevRef τ sig) = W (main_arg0 : DevRef τ sig) := by
  after_results_simp
theorem E_arg1 (W : Valuation τ sig (Elt F)) : after opsE W (main_arg1 : DevRef τ sig) = W (main_arg1 : DevRef τ sig) := by
  after_results_simp
theorem E_arg2 (W : Valuation τ sig (Elt F)) : after opsE W (main_arg2 : DevRef τ sig) = W (main_arg2 : DevRef τ sig) := by
  after_results_simp
theorem E_arg3 (W : Valuation τ sig (Elt F)) : after opsE W (main_arg3 : DevRef τ sig) = W (main_arg3 : DevRef τ sig) := by
  after_results_simp
theorem E_arg4 (W : Valuation τ sig (Elt F)) : after opsE W (main_arg4 : DevRef τ sig) = W (main_arg4 : DevRef τ sig) := by
  after_results_simp

end Stretches

/-! ## The stretches composed -/

section Composed
variable (V : Valuation τ sig (Elt F))

/-- The contents after the keys, after the sort, after the flags, after the voxel numbers, after the first result,
    after the second. -/
def V1 : Valuation τ sig (Elt F) := after opsA V
def V2 : Valuation τ sig (Elt F) := after opsB (V1 V)
def V3 : Valuation τ sig (Elt F) := after opsC1 (V2 V)
def V4 : Valuation τ sig (Elt F) := after opsC2 (V3 V)
def V5 : Valuation τ sig (Elt F) := after opsD (V4 V)
def V6 : Valuation τ sig (Elt F) := after opsE (V5 V)

theorem after_ops : after ops V = V6 V := by
  simp only [after_app]
  rfl

theorem V1_v37 : V1 V (main_v37 : DevRef τ sig) = keysOf (V (main_arg0 : DevRef τ sig)) := A_v37 V
theorem V1_v2 : V1 V (main_v2 : DevRef τ sig) = coords (V (main_arg0 : DevRef τ sig)) := A_v2 V
theorem V1_v5 : V1 V (main_v5 : DevRef τ sig) = (feats : FVec F S500000x1 .f32) := A_v5 V
theorem V1_cst : V1 V (main_cst : DevRef τ sig) = (constant S4 .f32 0x3DCCCCCD#32 : FVec F S4 .f32) := A_cst V
theorem V1_arg0 : V1 V (main_arg0 : DevRef τ sig) = (V (main_arg0 : DevRef τ sig)) := A_arg0 V
theorem V1_arg1 : V1 V (main_arg1 : DevRef τ sig) = (V (main_arg1 : DevRef τ sig)) := A_arg1 V
theorem V1_arg2 : V1 V (main_arg2 : DevRef τ sig) = (V (main_arg2 : DevRef τ sig)) := A_arg2 V
theorem V1_arg3 : V1 V (main_arg3 : DevRef τ sig) = (V (main_arg3 : DevRef τ sig)) := A_arg3 V
theorem V1_arg4 : V1 V (main_arg4 : DevRef τ sig) = (V (main_arg4 : DevRef τ sig)) := A_arg4 V

theorem V2_v38 : V2 V (main_v38 : DevRef τ sig) = orderOf (keysOf (V (main_arg0 : DevRef τ sig))) := by
  unfold V2
  rw [B_v38, V1_v37]
theorem V2_v37 : V2 V (main_v37 : DevRef τ sig) = keysOf (V (main_arg0 : DevRef τ sig)) := by
  unfold V2
  rw [B_v37, V1_v37]
theorem V2_v2 : V2 V (main_v2 : DevRef τ sig) = coords (V (main_arg0 : DevRef τ sig)) := by
  unfold V2
  rw [B_v2, V1_v2]
theorem V2_v5 : V2 V (main_v5 : DevRef τ sig) = (feats : FVec F S500000x1 .f32) := by
  unfold V2
  rw [B_v5, V1_v5]
theorem V2_cst : V2 V (main_cst : DevRef τ sig) = (constant S4 .f32 0x3DCCCCCD#32 : FVec F S4 .f32) := by
  unfold V2
  rw [B_cst, V1_cst]
theorem V2_arg0 : V2 V (main_arg0 : DevRef τ sig) = (V (main_arg0 : DevRef τ sig)) := by
  unfold V2
  rw [B_arg0, V1_arg0]
theorem V2_arg1 : V2 V (main_arg1 : DevRef τ sig) = (V (main_arg1 : DevRef τ sig)) := by
  unfold V2
  rw [B_arg1, V1_arg1]
theorem V2_arg2 : V2 V (main_arg2 : DevRef τ sig) = (V (main_arg2 : DevRef τ sig)) := by
  unfold V2
  rw [B_arg2, V1_arg2]
theorem V2_arg3 : V2 V (main_arg3 : DevRef τ sig) = (V (main_arg3 : DevRef τ sig)) := by
  unfold V2
  rw [B_arg3, V1_arg3]
theorem V2_arg4 : V2 V (main_arg4 : DevRef τ sig) = (V (main_arg4 : DevRef τ sig)) := by
  unfold V2
  rw [B_arg4, V1_arg4]

theorem V3_v50 : V3 V (main_v50 : DevRef τ sig) = flagsTail (sortedKeys (keysOf (V (main_arg0 : DevRef τ sig))) (orderOf (keysOf (V (main_arg0 : DevRef τ sig))))) := by
  unfold V3
  rw [C1_v50, V2_v37, V2_v38]
theorem V3_v46 : V3 V (main_v46 : DevRef τ sig) = (broadcastInDim S1 ![] bcast_S_S1 (constantI S_ 32 0#32) : IVec S1 32) := C1_v46 (V2 V)
theorem V3_v38 : V3 V (main_v38 : DevRef τ sig) = orderOf (keysOf (V (main_arg0 : DevRef τ sig))) := by
  unfold V3
  rw [C1_v38, V2_v38]
theorem V3_v2 : V3 V (main_v2 : DevRef τ sig) = coords (V (main_arg0 : DevRef τ sig)) := by
  unfold V3
  rw [C1_v2, V2_v2]
theorem V3_v5 : V3 V (main_v5 : DevRef τ sig) = (feats : FVec F S500000x1 .f32) := by
  unfold V3
  rw [C1_v5, V2_v5]
theorem V3_cst : V3 V (main_cst : DevRef τ sig) = (constant S4 .f32 0x3DCCCCCD#32 : FVec F S4 .f32) := by
  unfold V3
  rw [C1_cst, V2_cst]
theorem V3_arg0 : V3 V (main_arg0 : DevRef τ sig) = (V (main_arg0 : DevRef τ sig)) := by
  unfold V3
  rw [C1_arg0, V2_arg0]
theorem V3_arg1 : V3 V (main_arg1 : DevRef τ sig) = (V (main_arg1 : DevRef τ sig)) := by
  unfold V3
  rw [C1_arg1, V2_arg1]
theorem V3_arg2 : V3 V (main_arg2 : DevRef τ sig) = (V (main_arg2 : DevRef τ sig)) := by
  unfold V3
  rw [C1_arg2, V2_arg2]
theorem V3_arg3 : V3 V (main_arg3 : DevRef τ sig) = (V (main_arg3 : DevRef τ sig)) := by
  unfold V3
  rw [C1_arg3, V2_arg3]
theorem V3_arg4 : V3 V (main_arg4 : DevRef τ sig) = (V (main_arg4 : DevRef τ sig)) := by
  unfold V3
  rw [C1_arg4, V2_arg4]

theorem V4_v60 : V4 V (main_v60 : DevRef τ sig) = invFrom (keysOf (V (main_arg0 : DevRef τ sig))) (orderOf (keysOf (V (main_arg0 : DevRef τ sig)))) := by
  unfold V4
  rw [C2_v60, V3_v38, V3_v46, V3_v50]
  rfl
theorem V4_v2 : V4 V (main_v2 : DevRef τ sig) = coords (V (main_arg0 : DevRef τ sig)) := by
  unfold V4
  rw [C2_v2, V3_v2]
theorem V4_v5 : V4 V (main_v5 : DevRef τ sig) = (feats : FVec F S500000x1 .f32) := by
  unfold V4
  rw [C2_v5, V3_v5]
theorem V4_cst : V4 V (main_cst : DevRef τ sig) = (constant S4 .f32 0x3DCCCCCD#32 : FVec F S4 .f32) := by
  unfold V4
  rw [C2_cst, V3_cst]
theorem V4_arg0 : V4 V (main_arg0 : DevRef τ sig) = (V (main_arg0 : DevRef τ sig)) := by
  unfold V4
  rw [C2_arg0, V3_arg0]
theorem V4_arg1 : V4 V (main_arg1 : DevRef τ sig) = (V (main_arg1 : DevRef τ sig)) := by
  unfold V4
  rw [C2_arg1, V3_arg1]
theorem V4_arg2 : V4 V (main_arg2 : DevRef τ sig) = (V (main_arg2 : DevRef τ sig)) := by
  unfold V4
  rw [C2_arg2, V3_arg2]
theorem V4_arg3 : V4 V (main_arg3 : DevRef τ sig) = (V (main_arg3 : DevRef τ sig)) := by
  unfold V4
  rw [C2_arg3, V3_arg3]
theorem V4_arg4 : V4 V (main_arg4 : DevRef τ sig) = (V (main_arg4 : DevRef τ sig)) := by
  unfold V4
  rw [C2_arg4, V3_arg4]

theorem V5_v87 : V5 V (main_v87 : DevRef τ sig) = out87 (V (main_arg0 : DevRef τ sig)) (V (main_arg1 : DevRef τ sig)) (V (main_arg2 : DevRef τ sig)) (V (main_arg3 : DevRef τ sig)) (V (main_arg4 : DevRef τ sig)) := by
  unfold V5
  rw [D_v87 _ (V4_v5 V), V4_v60, V4_arg1, V4_arg2, V4_arg3, V4_arg4]
  rfl
theorem V5_v2 : V5 V (main_v2 : DevRef τ sig) = coords (V (main_arg0 : DevRef τ sig)) := by
  unfold V5
  rw [D_v2, V4_v2]
theorem V5_cst : V5 V (main_cst : DevRef τ sig) = (constant S4 .f32 0x3DCCCCCD#32 : FVec F S4 .f32) := by
  unfold V5
  rw [D_cst, V4_cst]
theorem V5_arg0 : V5 V (main_arg0 : DevRef τ sig) = (V (main_arg0 : DevRef τ sig)) := by
  unfold V5
  rw [D_arg0, V4_arg0]
theorem V5_arg1 : V5 V (main_arg1 : DevRef τ sig) = (V (main_arg1 : DevRef τ sig)) := by
  unfold V5
  rw [D_arg1, V4_arg1]
theorem V5_arg2 : V5 V (main_arg2 : DevRef τ sig) = (V (main_arg2 : DevRef τ sig)) := by
  unfold V5
  rw [D_arg2, V4_arg2]
theorem V5_arg3 : V5 V (main_arg3 : DevRef τ sig) = (V (main_arg3 : DevRef τ sig)) := by
  unfold V5
  rw [D_arg3, V4_arg3]
theorem V5_arg4 : V5 V (main_arg4 : DevRef τ sig) = (V (main_arg4 : DevRef τ sig)) := by
  unfold V5
  rw [D_arg4, V4_arg4]

theorem V6_v90 : V6 V (main_v90 : DevRef τ sig) = out90 (V (main_arg0 : DevRef τ sig)) := by
  unfold V6
  rw [E_v90, V5_v2, V5_cst]
  rfl
theorem V6_v87 : V6 V (main_v87 : DevRef τ sig) = out87 (V (main_arg0 : DevRef τ sig)) (V (main_arg1 : DevRef τ sig)) (V (main_arg2 : DevRef τ sig)) (V (main_arg3 : DevRef τ sig)) (V (main_arg4 : DevRef τ sig)) := by
  unfold V6
  rw [E_v87, V5_v87]
theorem V6_arg0 : V6 V (main_arg0 : DevRef τ sig) = (V (main_arg0 : DevRef τ sig)) := by
  unfold V6
  rw [E_arg0, V5_arg0]
theorem V6_arg1 : V6 V (main_arg1 : DevRef τ sig) = (V (main_arg1 : DevRef τ sig)) := by
  unfold V6
  rw [E_arg1, V5_arg1]
theorem V6_arg2 : V6 V (main_arg2 : DevRef τ sig) = (V (main_arg2 : DevRef τ sig)) := by
  unfold V6
  rw [E_arg2, V5_arg2]
theorem V6_arg3 : V6 V (main_arg3 : DevRef τ sig) = (V (main_arg3 : DevRef τ sig)) := by
  unfold V6
  rw [E_arg3, V5_arg3]
theorem V6_arg4 : V6 V (main_arg4 : DevRef τ sig) = (V (main_arg4 : DevRef τ sig)) := by
  unfold V6
  rw [E_arg4, V5_arg4]

end Composed

/-- Every weakly fair execution of the reference terminates with its two results at `out87` and `out90` of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = Cert.RefTerms.out87 (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v90) = Cert.RefTerms.out90 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v87).trans ((congrFun (after_ops _) _).trans (V6_v87 (launchContents m c))),
       (h c main_v90).trans ((congrFun (after_ops _) _).trans (V6_v90 (launchContents m c))),
       (h c main_arg0).trans ((congrFun (after_ops _) _).trans (V6_arg0 (launchContents m c))),
       (h c main_arg1).trans ((congrFun (after_ops _) _).trans (V6_arg1 (launchContents m c))),
       (h c main_arg2).trans ((congrFun (after_ops _) _).trans (V6_arg2 (launchContents m c))),
       (h c main_arg3).trans ((congrFun (after_ops _) _).trans (V6_arg3 (launchContents m c))),
       (h c main_arg4).trans ((congrFun (after_ops _) _).trans (V6_arg4 (launchContents m c)))⟩)
    (run_seq scopedRefs_eq scopedSems_eq defs main (fun _ => ops) main_eq (fun _ => ops_sub) m ρ
      (fun _ op h => (ops_ok op h).2))

end Cert.RefRun

end
-- ==== Proof.Fold.lean ====
/-
  Two induction principles for left folds: an invariant that every step keeps, and an invariant indexed by how
  many positions of `0, 1, …, N-1` have been folded.
-/
import Mathlib.Data.List.Range
import Mathlib.Data.List.FinRange

namespace Cert.Fold

/-- An invariant of the accumulator that every step keeps holds of the fold. -/
theorem foldl_inv {α β : Type} (P : β → Prop) (f : β → α → β) (l : List α) (b : β) (h0 : P b)
    (hs : ∀ b a, a ∈ l → P b → P (f b a)) : P (l.foldl f b) := by
  induction l generalizing b with
  | nil => exact h0
  | cons a l ih =>
    exact ih (f b a) (hs b a (List.mem_cons_self) h0) (fun b' a' ha' => hs b' a' (List.mem_cons_of_mem _ ha'))

/-- An invariant indexed by the number of positions folded: true of the start at `0`, carried from `n` to
    `n + 1` by the step at position `n`, it holds at `N` of the fold over all `N` positions in order. -/
theorem foldl_finRange_ind {β : Type} : ∀ (N : Nat) (f : β → Fin N → β) (b : β) (P : Nat → β → Prop),
    P 0 b → (∀ (n : Fin N) (b : β), P n.val b → P (n.val + 1) (f b n)) → P N ((List.finRange N).foldl f b)
  | 0, _, _, _, h0, _ => by simpa using h0
  | N + 1, f, b, P, h0, hs => by
    rw [List.finRange_succ, List.foldl_cons, List.foldl_map]
    exact foldl_finRange_ind N (fun b n => f b n.succ) (f b 0) (fun n b => P (n + 1) b)
      (by simpa using hs 0 b h0) (fun n b h => by simpa using hs n.succ b h)

end Cert.Fold
-- ==== Proof.IntRange.lean ====
/-
  Every voxel number is a position: `0 ≤ inv j < 500000`.

  The flags are `0` at position `0` and `0` or `1` elsewhere, so their running count at position `k` is at most `k`
  (no wrap-around: the count stays far below `2^32`); the voxel numbers are zeros overwritten by some of those
  counts, so each is a count or zero.
-/
import proofs.«134934_g20770461843884_cont_sun_c4_649_6_alg».proof.Proof.RefTerms
import proofs.«134934_g20770461843884_cont_sun_c4_649_6_alg».proof.Proof.Fold
import Idealize.ShloMosaic.Lib.ValueIdx
import Idealize.ShloMosaic.Lib.Pipeline.Value

noncomputable section

namespace Cert.RefRange

open Idealize.ShloMosaic Idealize.ShloMosaic.ValueIdx Cert.ReferenceIdeal Cert.RefTerms

variable [Cert.ReferenceIdeal.Facts]

/-! ## The flags at an index -/

/-- The flag at position `0` is `0`: it is read in the first piece of the concatenation, a broadcast zero. -/
theorem boundaries_first (sk : IVec S500000 32) (i : S500000.Idx) (h0 : (i 0).val = 0) :
    boundaries sk i = 0#32 := by
  unfold boundaries
  refine (concatenate_pair_apply_left (t := S500000) (s₁ := S1) (s₂ := S499999) (0 : Fin S500000.rank) _ _ _ i rfl
    (ix1 (0 : Fin 1)) (fun b => match b with | ⟨0, _⟩ => h0.symm)).trans ?_
  rfl

/-- A flag past position `0` is a one-bit word widened to 32 bits: `0` or `1`. -/
theorem boundaries_later (sk : IVec S500000 32) (i : S500000.Idx) (h1 : 1 ≤ (i 0).val) :
    (boundaries sk i).toNat ≤ 1 := by
  have hlt : (i 0).val < 500000 := (i 0).isLt
  have hlt' : (i 0).val - 1 < 499999 := by omega
  unfold boundaries
  rw [concatenate_pair_apply_right (t := S500000) (s₁ := S1) (s₂ := S499999) (0 : Fin S500000.rank) _ _ _ i rfl rfl
    (ix1 (⟨(i 0).val - 1, hlt'⟩ : Fin 499999))
    (fun b => match b with | ⟨0, _⟩ => fun hne => absurd rfl hne)
    (by show (i 0).val - 1 + 1 = (i 0).val; omega)]
  unfold extui
  rw [BitVec.toNat_setWidth]
  exact Nat.le_of_lt_succ (lt_of_le_of_lt (Nat.mod_le _ _) (BitVec.isLt _))

/-- Every flag is `0` or `1`. -/
theorem boundaries_le_one (sk : IVec S500000 32) (i : S500000.Idx) : (boundaries sk i).toNat ≤ 1 := by
  by_cases h0 : (i 0).val = 0
  · rw [boundaries_first sk i h0]; decide
  · exact boundaries_later sk i (by omega)

/-! ## The running count -/

/-- At rank 1 the row-major position of an index is its coordinate: the index at position `n` has coordinate `n`. -/
theorem rowMajor_symm_one (d : Fin 1 → Nat) (n : Fin (⟨1, d⟩ : Shape).numel) :
    (((⟨1, d⟩ : Shape).rowMajor.symm n) 0).val = n.val := by
  have h := Shape.rowMajor_val_one ((⟨1, d⟩ : Shape).rowMajor.symm n)
  rw [Equiv.apply_symm_apply] at h
  exact h.symm

/-- A window of `500000` positions has `500000` positions. -/
theorem window_numel : (⟨S500000.rank, ![500000]⟩ : Shape).numel = 500000 := by
  simp [Shape.numel]

/-- One term of the running count: the flag the window position reads, or the initial `0` where the position is
    padding. It is at most `1`, and it is `0` unless the position read lies past flag number `0`. (The test
    whether the position is inside is decided by whatever procedure the sum's definition carries.) -/
theorem term_le (x : IVec S500000 32) (hx0 : ∀ i : S500000.Idx, (i 0).val = 0 → x i = 0#32)
    (hx1 : ∀ i : S500000.Idx, (x i).toNat ≤ 1) (p : Fin S500000.rank → Nat) (v : BitVec 32) (hv : v = 0#32)
    {inst : Decidable (∀ a, (![499999] : Fin S500000.rank → Nat) a ≤ p a ∧
      p a - (![499999] : Fin S500000.rank → Nat) a < S500000.size a)} :
    (@dite (BitVec 32) _ inst
      (fun hin => x (fun a => ⟨p a - (![499999] : Fin S500000.rank → Nat) a, (hin a).2⟩)) (fun _ => v)).toNat
      ≤ if 500000 ≤ p 0 then 1 else 0 := by
  split
  · rename_i hin
    have h1 : 499999 ≤ p 0 := (hin 0).1
    have key : ∀ j : S500000.Idx, (j 0).val = p 0 - 499999 → (x j).toNat ≤ if 500000 ≤ p 0 then 1 else 0 := by
      intro j hj
      by_cases he : p 0 - 499999 = 0
      · rw [hx0 j (hj.trans he)]; simp
      · rw [if_pos (by omega)]; exact hx1 j
    exact key _ rfl
  · subst hv; simp

/-- The counting step on plain numbers: a count that is at most `K + N - 500000` after `N` positions, plus at most one
    more and only once `K + N` has reached `500000`, is at most `K + (N + 1) - 500000`. -/
theorem count_step (A K N : Nat) (hA : A ≤ K + N - 500000) :
    A + (if 500000 ≤ K + N then 1 else 0) ≤ K + (N + 1) - 500000 := by
  split
  · rename_i hge
    have e : K + (N + 1) - 500000 = K + N - 500000 + 1 := by
      rw [← Nat.add_assoc]; exact Nat.sub_add_comm hge
    rw [e]
    exact Nat.add_le_add_right hA 1
  · exact le_trans hA (Nat.sub_le_sub_right (Nat.add_le_add_left (Nat.le_succ N) K) 500000)

/-- The running count of flags that are `0` or `1`, the first of them `0`, is at position `k` at most `k`:
    after `n` window positions the count is at most `k + n - 500000` (nothing while the window is still in the
    padding or on flag number `0`, then at most one more per position), and there are `500000` positions. -/
theorem ranks_le (x : IVec S500000 32) (hx0 : ∀ i : S500000.Idx, (i 0).val = 0 → x i = 0#32)
    (hx1 : ∀ i : S500000.Idx, (x i).toNat ≤ 1) (k : Fin 500000) : (ranks x (ix1 k)).toNat ≤ k.val := by
  unfold ranks Host.reduceWindow
  dsimp only
  refine le_trans (?_ : _ ≤ k.val + (⟨S500000.rank, ![500000]⟩ : Shape).numel - 500000)
    (by rw [window_numel, Nat.add_sub_cancel])
  refine Cert.Fold.foldl_finRange_ind _ _ _ (fun n (acc : BitVec 32) => acc.toNat ≤ k.val + n - 500000) ?_ ?_
  · show (0#32 : BitVec 32).toNat ≤ _
    simp
  · intro n acc hacc
    have hcoord := rowMajor_symm_one ![500000] n
    show (acc + _).toNat ≤ _
    rw [BitVec.toNat_add]
    refine le_trans (Nat.mod_le _ _) ?_
    refine le_trans (Nat.add_le_add_left (term_le x hx0 hx1 _ _ (by rfl)) _) ?_
    have hp : k.val * 1 + ((⟨1, ![500000]⟩ : Shape).rowMajor.symm n 0).val = k.val + n.val := by
      rw [hcoord, Nat.mul_one]
    show acc.toNat + (if 500000 ≤ k.val * 1 + ((⟨1, ![500000]⟩ : Shape).rowMajor.symm n 0).val then 1 else 0) ≤ _
    rw [hp]
    exact count_step _ _ _ hacc

/-- The running count of the flags at position `k` is at most `k`, whatever the sorted keys are. -/
theorem ranks_boundaries_le (sk : IVec S500000 32) (k : Fin 500000) :
    (ranks (boundaries sk) (ix1 k)).toNat ≤ k.val :=
  ranks_le (boundaries sk) (boundaries_first sk) (boundaries_le_one sk) k

/-- Zeros overwritten by in-range values are in range. -/
theorem invOf_lt (order rk : IVec S500000 32) (h : ∀ k : Fin 500000, (rk (ix1 k)).toNat < 500000) (j : Fin 500000) :
    (invOf order rk (ix1 j)).toNat < 500000 := by
  -- the hypothesis at an arbitrary index: every rank-1 index is `ix1` of its coordinate
  have hrk : ∀ u : S500000.Idx, (rk u).toNat < 500000 := fun u => by
    rw [congrArg rk (eq_ix1 u)]; exact h (u 0)
  -- "every entry is below `500000`" holds of the zeros the scatter starts from, and each of its steps either
  -- leaves the array or replaces one entry by an update
  have key : ∀ i : S500000.Idx, (invOf order rk i).toNat < 500000 := by
    unfold invOf Host.scatter
    refine Cert.Fold.foldl_inv (fun r : S500000.Idx → BitVec 32 => ∀ i, (r i).toNat < 500000) _ _ _ ?_ ?_
    · intro i
      show (0#32 : BitVec 32).toNat < 500000
      simp
    · intro r n _ hr i'
      dsimp only
      generalize scatter_S500000_S500000x1_S500000_n_0_0_1.resultIdx? (S500000.rowMajor.symm n)
        (col (wrapIdx order)) = d
      cases d with
      | none => exact hr i'
      | some i =>
        dsimp only
        split
        · exact hrk _
        · exact hr i'
  exact key _

/-- Every voxel number is a position, whatever the keys and the order are. -/
theorem invFrom_lt (keys order : IVec S500000 32) (j : Fin 500000) :
    (invFrom keys order (ix1 j)).toNat < 500000 :=
  invOf_lt order _ (fun k => lt_of_le_of_lt (ranks_boundaries_le _ k) k.isLt) j

end Cert.RefRange

end
-- ==== Proof.Consts.lean ====
/-
  The float literals the two programs spell, as the extended reals they denote: `1.0` is `1`, `0.5` is `1/2`
  (`0.0` is `0` by the library's `Ideal.ofBits_zero_f32`). Stated once, so that no other module opens the
  literal's decoding.
-/
import Idealize.ShloMosaic.PureOps.Ideal
import Idealize.ShloMosaic.PureOps.Ideal.Laws

noncomputable section

namespace Cert.Consts

open Idealize.ShloMosaic

/-- The literal `1.0` denotes `1`. -/
theorem ofBits_one : Ideal.ofBits .f32 0x3F800000#32 = 1 := by
  simp [Ideal.ofBits, Ideal.ieee, -EReal.coe_mul]; norm_num

/-- The literal `0.5` denotes the real `1/2`. -/
theorem ofBits_half : Ideal.ofBits .f32 0x3F000000#32 = ((1 / 2 : ℝ) : EReal) := by
  simp [Ideal.ofBits, Ideal.ieee, -EReal.coe_mul]; norm_num

end Cert.Consts

end
-- ==== Proof.SegMean.lean ====
/-
  The average feature of an occupied voxel is `1/2`.

  At the extended reals the two accumulating scatters are exact sums over the points that name the voxel: the
  count is the number `n` of those points, the feature sum is `n · (1/2 · 1)`. A voxel some point names has
  `n ≥ 1`, so `max n 1 = n` and the quotient is `1/2`.
-/
import proofs.«134934_g20770461843884_cont_sun_c4_649_6_alg».proof.Proof.RefTerms
import proofs.«134934_g20770461843884_cont_sun_c4_649_6_alg».proof.Proof.Spec
import proofs.«134934_g20770461843884_cont_sun_c4_649_6_alg».proof.Proof.Consts
import Idealize.ShloMosaic.Lib.ValueIdx
import Idealize.ShloMosaic.Lib.ValueIdxRank1
import Idealize.ShloMosaic.PureOps.Ideal.Laws

noncomputable section

namespace Cert.SegMean

open Idealize.ShloMosaic Idealize.ShloMosaic.ValueIdx Cert.ReferenceIdeal Cert.RefTerms

variable [Cert.ReferenceIdeal.Facts]

/-- A vector laid out as a column reads the vector at the row. -/
theorem bcast_col_apply {α : Type} (x : S500000.Idx → α) (i : S500000x1.Idx) :
    broadcastInDim S500000x1 ![0] Facts₀.bcast_S500000_S500000x1_0 x i = x (ix1 (n := 500000) (i 0)) := by
  unfold broadcastInDim
  congr 1
  funext a
  match a with
  | ⟨0, _⟩ =>
    rw [dif_neg (by show ¬((500000 : ℕ) = 1); decide)]
    rfl

/-- The index column reads its vector at the row. -/
theorem col_apply (v : IVec S500000 32) (i : S500000x1.Idx) : col v i = v (ix1 (n := 500000) (i 0)) :=
  bcast_col_apply v i

/-- The count scatter's dimension numbers: one inserted axis, one index component. -/
abbrev d₁ : ScatterDims S500000 S500000x1 S500000 := scatter_S500000_S500000x1_S500000_n_0_0_1
/-- The feature scatter's dimension numbers: the same, with the unit column as window axis. -/
abbrev d₂ : ScatterDims S500000x1 S500000x1 S500000x1 := scatter_S500000x1_S500000x1_S500000x1_1_0_0_1

/-- Update `k` of the count scatter reads its start index in row `k` of the index column. -/
theorem siIdx₁ (k : Fin 500000) (c : Fin d₁.scatterDimsToOperandDims.length) : (d₁.siIdx (ix1 k) c) 0 = k := by
  rfl

/-- Update `(k, e)` of the feature scatter reads its start index in row `k` of the index column. -/
theorem siIdx₂ (k : Fin 500000) (e : Fin 1) (c : Fin d₂.scatterDimsToOperandDims.length) : (d₂.siIdx (ix2 k e) c) 0 = k := by
  rfl

/-- The count scatter has no window: the window coordinate on the inserted axis is `0`. -/
theorem window₁ (k : Fin 500000) : d₁.window (ix1 k) 0 = 0 := by rfl
/-- The feature scatter's window coordinate on the inserted axis is `0`. -/
theorem window₂0 (k : Fin 500000) (e : Fin 1) : d₂.window (ix2 k e) 0 = 0 := by rfl
/-- The feature scatter's window coordinate on the column axis is the update's column. -/
theorem window₂1 (k : Fin 500000) (e : Fin 1) : d₂.window (ix2 k e) 1 = e.val := by rfl

/-- The count scatter's start on the voxel axis is point `k`'s voxel number, read signed. -/
theorem start₁ (inv : IVec S500000 32) (k : Fin 500000) : d₁.start (ix1 k) (col inv) 0 = (inv (ix1 k)).toInt := by
  unfold ScatterDims.start
  rw [dif_pos (show (0 : Fin 1) ∈ d₁.scatterDimsToOperandDims from List.mem_singleton.2 rfl), col_apply, siIdx₁]

/-- The feature scatter's start on the voxel axis is point `k`'s voxel number, read signed. -/
theorem start₂0 (inv : IVec S500000 32) (k : Fin 500000) (e : Fin 1) : d₂.start (ix2 k e) (col inv) 0 = (inv (ix1 k)).toInt := by
  unfold ScatterDims.start
  rw [dif_pos (show (0 : Fin 2) ∈ d₂.scatterDimsToOperandDims from List.mem_singleton.2 rfl), col_apply, siIdx₂]

/-- The feature scatter's start on the column axis is `0`: no index component names it. -/
theorem start₂1 (inv : IVec S500000 32) (k : Fin 500000) (e : Fin 1) : d₂.start (ix2 k e) (col inv) 1 = 0 := by
  unfold ScatterDims.start
  rw [dif_neg (show (1 : Fin 2) ∉ d₂.scatterDimsToOperandDims by show (1 : Fin 2) ∉ [(0 : Fin 2)]; decide)]

/-- A word below `500000` read signed is the natural number it holds. -/
theorem toInt_of_lt (b : BitVec 32) (h : b.toNat < 500000) : b.toInt = (b.toNat : Int) :=
  BitVec.toInt_eq_toNat_of_lt (by omega)

/-- An update whose start plus window coordinate is `i`'s coordinate on every axis lands at `i`. -/
theorem resultIdx?_eq_some {s si u : Shape} (d : ScatterDims s si u) {w : Nat} (j : u.Idx) (idx : IVec si w) (i : s.Idx)
    (h : ∀ a, d.start j idx a + d.window j a = ((i a).val : Int)) : d.resultIdx? j idx = some i := by
  unfold ScatterDims.resultIdx?
  rw [dif_pos (fun a => by rw [h a]; exact ⟨Int.natCast_nonneg _, by exact_mod_cast (i a).isLt⟩)]
  congr 1
  funext a
  apply Fin.ext
  simp only [h a, Int.toNat_natCast]

/-- Update `k` of the count scatter lands at point `k`'s voxel. -/
theorem resultIdx₁ (inv : IVec S500000 32) (k : Fin 500000) (hk : (inv (ix1 k)).toNat < 500000) :
    d₁.resultIdx? (ix1 k) (col inv) = some (ix1 ⟨(inv (ix1 k)).toNat, hk⟩) := by
  apply resultIdx?_eq_some
  intro a
  match a with
  | ⟨0, _⟩ =>
    show d₁.start (ix1 k) (col inv) 0 + (d₁.window (ix1 k) 0 : Int) = ((inv (ix1 k)).toNat : Int)
    rw [start₁, window₁, toInt_of_lt _ hk]; simp

/-- Update `(k, e)` of the feature scatter lands at point `k`'s voxel, column `e`. -/
theorem resultIdx₂ (inv : IVec S500000 32) (k : Fin 500000) (e : Fin 1) (hk : (inv (ix1 k)).toNat < 500000) :
    d₂.resultIdx? (ix2 k e) (col inv) = some (ix2 ⟨(inv (ix1 k)).toNat, hk⟩ e) := by
  apply resultIdx?_eq_some
  intro a
  match a with
  | ⟨0, _⟩ =>
    show d₂.start (ix2 k e) (col inv) 0 + (d₂.window (ix2 k e) 0 : Int) = ((inv (ix1 k)).toNat : Int)
    rw [start₂0, window₂0, toInt_of_lt _ hk]; simp
  | ⟨1, _⟩ =>
    show d₂.start (ix2 k e) (col inv) 1 + (d₂.window (ix2 k e) 1 : Int) = (e.val : Int)
    rw [start₂1, window₂1]; simp

/-- The rows of a one-column shape. -/
def colEquiv : S500000x1.Idx ≃ Fin 500000 where
  toFun i := i 0
  invFun k := ix2 k 0
  left_inv i := by
    have h1 : i 1 = (0 : Fin 1) := Subsingleton.elim (α := Fin 1) _ _
    show ix2 (i 0) 0 = i
    rw [← h1]; exact (eq_ix2 i).symm
  right_inv _ := rfl

/-- The count scatter at voxel `v`: the operand there plus the updates of the points that name `v`. -/
theorem scatterAdd₁ (inv : IVec S500000 32) (hinv : ∀ k : Fin 500000, (inv (ix1 k)).toNat < 500000)
    (x upd : S500000.Idx → EReal) (v : Fin 500000) :
    Ideal.hostScatterAdd d₁ x (col inv) upd (ix1 v)
      = x (ix1 v) + ∑ k ∈ Finset.univ.filter (fun k : Fin 500000 => (inv (ix1 k)).toNat = v.val), upd (ix1 k) := by
  unfold Ideal.hostScatterAdd
  refine congrArg (fun t => x (ix1 v) + t) ?_
  refine Finset.sum_equiv idxEquiv1 (fun j => ?_) (fun j _ => congrArg upd (eq_ix1 j))
  obtain ⟨k, rfl⟩ : ∃ k : Fin 500000, j = ix1 k := ⟨j 0, eq_ix1 j⟩
  simp only [Finset.mem_filter, Finset.mem_univ, true_and]
  rw [resultIdx₁ inv k (hinv k)]
  show some (ix1 _) = some (ix1 v) ↔ (inv (ix1 k)).toNat = v.val
  constructor
  · intro h; exact congrArg Fin.val (congrFun (Option.some.inj h) 0)
  · intro h; exact congrArg (fun t => some (ix1 t)) (Fin.ext h)

/-- The feature scatter at voxel `v`: the operand there plus the updates of the points that name `v`. -/
theorem scatterAdd₂ (inv : IVec S500000 32) (hinv : ∀ k : Fin 500000, (inv (ix1 k)).toNat < 500000)
    (x upd : S500000x1.Idx → EReal) (v : Fin 500000) :
    Ideal.hostScatterAdd d₂ x (col inv) upd (ix2 v 0)
      = x (ix2 v 0) + ∑ k ∈ Finset.univ.filter (fun k : Fin 500000 => (inv (ix1 k)).toNat = v.val), upd (ix2 k 0) := by
  unfold Ideal.hostScatterAdd
  refine congrArg (fun t => x (ix2 v 0) + t) ?_
  refine Finset.sum_equiv colEquiv (fun j => ?_) (fun j _ => congrArg upd (colEquiv.left_inv j).symm)
  obtain ⟨k, rfl⟩ : ∃ k : Fin 500000, j = ix2 k 0 := ⟨j 0, (colEquiv.left_inv j).symm⟩
  simp only [Finset.mem_filter, Finset.mem_univ, true_and]
  rw [resultIdx₂ inv k 0 (hinv k)]
  show some (ix2 _ 0) = some (ix2 v 0) ↔ (inv (ix1 k)).toNat = v.val
  constructor
  · intro h; exact congrArg Fin.val (congrFun (Option.some.inj h) 0)
  · intro h; exact congrArg (fun t => some (ix2 t (0 : Fin 1))) (Fin.ext h)

/-- The count scatter at voxel `v`, as the host operation spells it. -/
theorem scatterAdd_apply₁ (inv : IVec S500000 32) (hinv : ∀ k : Fin 500000, (inv (ix1 k)).toNat < 500000)
    (x upd : FVec Ideal S500000 .f32) (v : Fin 500000) :
    Host.scatterAdd d₁ x (col inv) upd (ix1 v)
      = x (ix1 v) + ∑ k ∈ Finset.univ.filter (fun k : Fin 500000 => (inv (ix1 k)).toNat = v.val), upd (ix1 k) :=
  scatterAdd₁ inv hinv x upd v

/-- The feature scatter at voxel `v`, as the host operation spells it. -/
theorem scatterAdd_apply₂ (inv : IVec S500000 32) (hinv : ∀ k : Fin 500000, (inv (ix1 k)).toNat < 500000)
    (x upd : FVec Ideal S500000x1 .f32) (v : Fin 500000) :
    Host.scatterAdd d₂ x (col inv) upd (ix2 v 0)
      = x (ix2 v 0) + ∑ k ∈ Finset.univ.filter (fun k : Fin 500000 => (inv (ix1 k)).toNat = v.val), upd (ix2 k 0) :=
  scatterAdd₂ inv hinv x upd v

/-- A literal spread over the points is that literal everywhere. -/
theorem bcast_const₁ (b : BitVec 32) :
    broadcastInDim S500000 ![] Facts₀.bcast_S_S500000 (constant (F := Ideal) S_ .f32 b) = fun _ => Ideal.ofBits .f32 b := rfl

/-- A literal spread over the one-column points is that literal everywhere. -/
theorem bcast_const₂ (b : BitVec 32) :
    broadcastInDim S500000x1 ![] Facts₀.bcast_S_S500000x1 (constant (F := Ideal) S_ .f32 b) = fun _ => Ideal.ofBits .f32 b := rfl

/-- A vector laid out as a column, read at row `a`. -/
theorem bcast_col_ix2 {α : Type} (x : S500000.Idx → α) (a : Fin 500000) (b : Fin 1) :
    broadcastInDim S500000x1 ![0] Facts₀.bcast_S500000_S500000x1_0 x (ix2 a b) = x (ix1 a) :=
  bcast_col_apply x (ix2 a b)

/-- A natural multiple of a real number, inside the extended reals. -/
theorem nsmul_coe (n : ℕ) (r : ℝ) : n • (r : EReal) = ((n * r : ℝ) : EReal) := by
  rw [← EReal.coe_nsmul, nsmul_eq_mul]

/-- `n · 1/2` divided by `max n 1` is `1/2` for a natural `n ≥ 1`. -/
theorem div_half (n : ℕ) (hn : 0 < n) :
    Ideal.div (((n : ℝ) * (1 / 2) : ℝ) : EReal) (max ((n : ℝ) : EReal) 1) = ((1 / 2 : ℝ) : EReal) := by
  have hn1 : (1 : ℝ) ≤ n := by exact_mod_cast hn
  have hn0 : (n : ℝ) ≠ 0 := (lt_of_lt_of_le one_pos hn1).ne'
  rw [max_eq_left (by exact_mod_cast hn1), Ideal.div_coe hn0, ← EReal.coe_mul]
  refine congrArg (fun r : ℝ => (r : EReal)) ?_
  field_simp

/-- The count of voxel `v` is the number of points that name it. -/
theorem counts_at (inv : IVec S500000 32) (hinv : ∀ k : Fin 500000, (inv (ix1 k)).toNat < 500000) (v : Fin 500000)
    (n : ℕ) (hn : n = (Finset.univ.filter (fun k : Fin 500000 => (inv (ix1 k)).toNat = v.val)).card) :
    counts (F := Ideal) inv (ix1 v) = ((n : ℝ) : EReal) := by
  rw [counts, scatterAdd_apply₁ inv hinv, bcast_const₁, bcast_const₁]
  rw [Ideal.ofBits_zero_f32, Cert.Consts.ofBits_one, zero_add, Finset.sum_const, ← hn, ← EReal.coe_one, nsmul_coe, mul_one]

/-- Every point's feature is `1/2`. -/
theorem feats_apply (i : S500000x1.Idx) : feats (F := Ideal) i = ((1 / 2 : ℝ) : EReal) := by
  rw [feats, mulf_apply, bcast_const₂, bcast_const₂]
  rw [Cert.Consts.ofBits_one, Cert.Consts.ofBits_half, mul_one]

/-- The feature sum of voxel `v` is `1/2` for every point that names it. -/
theorem segsum_at (inv : IVec S500000 32) (hinv : ∀ k : Fin 500000, (inv (ix1 k)).toNat < 500000) (v : Fin 500000)
    (n : ℕ) (hn : n = (Finset.univ.filter (fun k : Fin 500000 => (inv (ix1 k)).toNat = v.val)).card) :
    segsum (F := Ideal) inv (ix2 v 0) = ((n * (1 / 2) : ℝ) : EReal) := by
  rw [segsum, scatterAdd_apply₂ inv hinv, bcast_const₂]
  simp only [feats_apply]
  rw [Ideal.ofBits_zero_f32, zero_add, Finset.sum_const, ← hn, nsmul_coe]

/-- The literal `1.0` spread over the voxels is `1` at each. -/
theorem ones_apply (i : S500000.Idx) :
    broadcastInDim S500000 ![] Facts₀.bcast_S_S500000 (constant (F := Ideal) S_ .f32 0x3F800000#32) i = 1 := by
  rw [bcast_const₁, Cert.Consts.ofBits_one]

/-- A voxel that some point names has average feature `1/2`. -/
theorem vfeat_voxel (inv : IVec S500000 32) (hinv : ∀ k : Fin 500000, (inv (ix1 k)).toNat < 500000)
    (v j : Fin 500000) (hj : (inv (ix1 j)).toNat = v.val) :
    vfeat (F := Ideal) inv (ix2 v 0) = Cert.Spec.half := by
  -- `n` points name the voxel, and `j` is one of them
  obtain ⟨n, hn⟩ : ∃ n : ℕ, n = (Finset.univ.filter (fun k : Fin 500000 => (inv (ix1 k)).toNat = v.val)).card := ⟨_, rfl⟩
  have hn1 : 0 < n := hn ▸ Finset.card_pos.2 ⟨j, Finset.mem_filter.2 ⟨Finset.mem_univ _, hj⟩⟩
  rw [vfeat, Host.divf, Ideal.hostDivf_def, bcast_col_ix2, maximumf_apply, segsum_at inv hinv v n hn,
    counts_at inv hinv v n hn, ones_apply, Cert.Spec.half, Cert.Consts.ofBits_half]
  exact div_half n hn1

/-- The voxel a point names has average feature `1/2`, when every voxel number is a position. -/
theorem vfeat_at (inv : IVec S500000 32) (hinv : ∀ j : Fin 500000, (inv (ix1 j)).toNat < 500000) (j : Fin 500000) :
    vfeat (F := Ideal) inv (ix2 ⟨(inv (ix1 j)).toNat, hinv j⟩ 0) = Cert.Spec.half := by
  exact vfeat_voxel inv hinv ⟨(inv (ix1 j)).toNat, hinv j⟩ j rfl

end Cert.SegMean

end
-- ==== Proof.RefValue.lean ====
/-
  The reference's two results are the specification's functions.

  A voxel number that is a position is not negative as a signed word, so jnp's wrapping leaves it alone and
  the read-back gather reads it unclamped: each point reads the perceptron at the voxel it names. That voxel's
  average feature is `1/2`; the first product has a single term, `1/2 · W1[0,i]`, and the second is the sum over
  the 64 hidden units: the prediction `pred`. The coordinates are the same formula on both sides.
-/
import proofs.«134934_g20770461843884_cont_sun_c4_649_6_alg».proof.Proof.RefTerms
import proofs.«134934_g20770461843884_cont_sun_c4_649_6_alg».proof.Proof.Spec
import proofs.«134934_g20770461843884_cont_sun_c4_649_6_alg».proof.Proof.IntRange
import proofs.«134934_g20770461843884_cont_sun_c4_649_6_alg».proof.Proof.SegMean
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Facts₀ Cert.RefTerms

variable [Cert.ReferenceIdeal.Facts]

/-! ## The second result -/

/-- The second result is `(x / q) · q`: the same two operations, entry by entry. -/
theorem out90_eq (x : FVec Ideal S500000x4 .f32) : out90 (F := Ideal) x = Cert.Spec.Gcoord x := by
  funext i
  simp only [out90, coords, qfull, mulf, Host.divf, broadcastInDim, constant, Ideal.mulf_def, Ideal.hostDivf_def,
    Ideal.ofBits_def, Cert.Spec.Gcoord, Cert.Spec.q]

/-! ## A position as a signed word -/

/-- A word below `500000` is not negative as a signed 32-bit integer. -/
theorem slt_zero_of_lt (w : BitVec 32) (h : w.toNat < 500000) : w.slt 0#32 = false := by
  have h2 : w.toInt = (w.toNat : Int) := by
    rw [BitVec.toInt_eq_toNat_cond]; simp; omega
  simp [BitVec.slt, h2]

/-- Read signed, it is the same natural number. -/
theorem toInt_toNat_of_lt (w : BitVec 32) (h : w.toNat < 500000) : w.toInt.toNat = w.toNat := by
  have h2 : w.toInt = (w.toNat : Int) := by
    rw [BitVec.toInt_eq_toNat_cond]; simp; omega
  rw [h2]; simp

/-- Wrapping negative indices leaves a vector of positions alone. -/
theorem wrapIdx_of_lt (v : IVec S500000 32) (h : ∀ j : Fin 500000, (v (ix1 j)).toNat < 500000) : wrapIdx v = v := by
  funext i
  obtain ⟨j, rfl⟩ : ∃ j : Fin 500000, i = ix1 j := ⟨i 0, eq_ix1 i⟩
  show Scalar.select (IntOp.cmpi .slt (v (ix1 j)) 0#32) (IntOp.addi (v (ix1 j)) 500000#32) (v (ix1 j)) = v (ix1 j)
  have hc : IntOp.cmpi .slt (v (ix1 j)) 0#32 = 0#1 := by simp [IntOp.cmpi, slt_zero_of_lt _ (h j)]
  rw [hc]; rfl

/-- The index column of a vector reads the vector. -/
theorem col_apply (v : IVec S500000 32) (j : Fin 500000) (z : Fin 1) : col v (ix2 j z) = v (ix1 j) := by
  simp only [col, broadcastInDim]
  congr 1
  funext a
  match a with
  | ⟨0, _⟩ => rfl

/-! ## The read-back gather at one point -/

/-- A start index read signed and clamped into the rows `[0, 499999]`. -/
def clampRow (w : BitVec 32) : Fin 500000 := ⟨min w.toInt.toNat 499999, by omega⟩

/-- A word that is a position is its own clamped row. -/
theorem clampRow_of_lt (w : BitVec 32) (h : w.toNat < 500000) : clampRow w = ⟨w.toNat, h⟩ := by
  apply Fin.ext
  show min w.toInt.toNat 499999 = w.toNat
  rw [toInt_toNat_of_lt w h]
  exact Nat.min_eq_left (by omega)

/-- Point `j` reads the operand's row at its start index, read signed and clamped into `[0, 499999]`; the second
    coordinate is the only one there is. -/
theorem gather_row {α : Type} (x : S500000x1.Idx → α) (idx : IVec S500000x1 32) (j : Fin 500000) (z : Fin 1) :
    Host.gather gather_S500000x1_S500000x1_S500000x1_1_0_n_n_0_1_11 x idx (ix2 j z)
      = x (ix2 (clampRow (idx (ix2 j 0))) 0) := by
  have hob : gather_S500000x1_S500000x1_S500000x1_1_0_n_n_0_1_11.operandBatchingDims = [] := rfl
  have hcoll : gather_S500000x1_S500000x1_S500000x1_1_0_n_n_0_1_11.collapsedSliceDims = [0] := rfl
  have hsim : gather_S500000x1_S500000x1_S500000x1_1_0_n_n_0_1_11.startIndexMap = [0] := rfl
  have hivd : gather_S500000x1_S500000x1_S500000x1_1_0_n_n_0_1_11.indexVectorDim = 1 := rfl
  unfold Host.gather
  congr 1
  funext a
  apply Fin.ext
  match a with
  | ⟨0, _⟩ =>
    -- the row: the start index clamped; no batching and no offset on this collapsed axis
    have hb : (0 : Fin 2) ∉ gather_S500000x1_S500000x1_S500000x1_1_0_n_n_0_1_11.operandBatchingDims := by
      rw [hob]; exact List.not_mem_nil
    have hk : (0 : Fin 2) ∉ gather_S500000x1_S500000x1_S500000x1_1_0_n_n_0_1_11.sKept := by
      rw [GatherDims.mem_sKept, hcoll]; simp
    have hm : (0 : Fin 2) ∈ gather_S500000x1_S500000x1_S500000x1_1_0_n_n_0_1_11.startIndexMap := by
      rw [hsim]; exact List.mem_singleton.mpr rfl
    show (gather_S500000x1_S500000x1_S500000x1_1_0_n_n_0_1_11.operandIdx (ix2 j z) idx 0).val = (clampRow (idx (ix2 j 0))).val
    simp only [GatherDims.operandIdx, GatherDims.batchCoord_eq_zero _ _ _ hb, GatherDims.offCoord_eq_zero _ _ _ hk,
      Nat.add_zero, GatherDims.start, dif_pos hm]
    show min (idx _).toInt.toNat (500000 - 1) = min (idx (ix2 j 0)).toInt.toNat 499999
    congr 3
    congr 1
    funext b
    match b with
    | ⟨0, _⟩ =>
      -- the start index is read at the point's own row of the index column
      unfold GatherDims.siIdx
      rw [dif_neg (by rw [hivd]; exact Nat.zero_ne_one)]
      unfold GatherDims.siCoord
      apply Fin.ext
      simp only [Fin.val_cast]
      have key : ∀ X : Fin 2, X = 0 → (ix2 j z X).val = j.val := fun X h => by subst h; rfl
      exact key _ rfl
    | ⟨1, _⟩ =>
      unfold GatherDims.siIdx
      rw [dif_pos (by rw [hivd])]
      apply Fin.ext
      show List.idxOf (0 : Fin 2) gather_S500000x1_S500000x1_S500000x1_1_0_n_n_0_1_11.startIndexMap = 0
      rw [hsim]; simp
  | ⟨1, _⟩ =>
    -- the column: an axis of extent one
    have h1 := (gather_S500000x1_S500000x1_S500000x1_1_0_n_n_0_1_11.operandIdx (ix2 j z) idx ⟨1, by decide⟩).isLt
    have h1' : (gather_S500000x1_S500000x1_S500000x1_1_0_n_n_0_1_11.operandIdx (ix2 j z) idx ⟨1, by decide⟩).val < 1 := h1
    show (gather_S500000x1_S500000x1_S500000x1_1_0_n_n_0_1_11.operandIdx (ix2 j z) idx ⟨1, by decide⟩).val = 0
    omega

/-! ## The two bias broadcasts read at an index -/

theorem bcast_b1 {α : Type} (b1 : S64.Idx → α) (v : Fin 500000) (i : Fin 64) :
    broadcastInDim S500000x64 ![0, 1] bcast_S1x64_S500000x64_0_1 (broadcastInDim S1x64 ![1] bcast_S64_S1x64_1 b1) (ix2 v i)
      = b1 (ix1 i) := by
  simp only [broadcastInDim]
  congr 1
  funext a
  match a with
  | ⟨0, _⟩ => rfl

theorem bcast_b2 {α : Type} (b2 : S1.Idx → α) (v : Fin 500000) (z : Fin 1) :
    broadcastInDim S500000x1 ![0, 1] bcast_S1x1_S500000x1_0_1 (broadcastInDim S1x1 ![1] bcast_S1_S1x1_1 b2) (ix2 v z)
      = b2 (ix1 0) := by
  simp only [broadcastInDim]
  congr 1
  funext a
  match a with
  | ⟨0, _⟩ => rfl

/-! ## The first product `vfeat · W1`: one term, the contraction has one position -/

theorem d1_lhs (j : S500000x64.Idx) (k : dot_S500000x1_S1x64_S500000x64_1_0_0_1_n_n.contr.Idx) :
    dot_S500000x1_S1x64_S500000x64_1_0_0_1_n_n.lhsIdx j k = ix2 (j 0) 0 := by
  funext a
  apply Fin.ext
  match a with
  | ⟨0, _⟩ =>
    have hb : (0 : Fin 2) ∉ dot_S500000x1_S1x64_S500000x64_1_0_0_1_n_n.lhsBatch := by
      show (0 : Fin 2) ∉ ([] : List (Fin 2)); exact List.not_mem_nil
    have hn : (0 : Fin 2) ∈ dot_S500000x1_S1x64_S500000x64_1_0_0_1_n_n.lhsNonContracting := by
      show (0 : Fin 2) ∈ ([0] : List (Fin 2)); exact List.mem_singleton.mpr rfl
    show (dot_S500000x1_S1x64_S500000x64_1_0_0_1_n_n.lhsIdx j k 0).val = (j 0).val
    unfold DotDims.lhsIdx
    rw [dif_neg hb, dif_pos hn]
    simp only [Fin.val_cast]
    have key : ∀ (p : Nat) (hp : p < 2), p = 0 → (j ⟨p, hp⟩).val = (j 0).val := fun p hp h => by subst h; rfl
    exact key _ _ rfl
  | ⟨1, _⟩ =>
    have h1 := (dot_S500000x1_S1x64_S500000x64_1_0_0_1_n_n.lhsIdx j k ⟨1, by decide⟩).isLt
    have h1' : (dot_S500000x1_S1x64_S500000x64_1_0_0_1_n_n.lhsIdx j k ⟨1, by decide⟩).val < 1 := h1
    show (dot_S500000x1_S1x64_S500000x64_1_0_0_1_n_n.lhsIdx j k ⟨1, by decide⟩).val = 0
    omega

theorem d1_rhs (j : S500000x64.Idx) (k : dot_S500000x1_S1x64_S500000x64_1_0_0_1_n_n.contr.Idx) :
    dot_S500000x1_S1x64_S500000x64_1_0_0_1_n_n.rhsIdx j k = ix2 0 (j 1) := by
  funext a
  apply Fin.ext
  match a with
  | ⟨0, _⟩ =>
    have h1 := (dot_S500000x1_S1x64_S500000x64_1_0_0_1_n_n.rhsIdx j k ⟨0, by decide⟩).isLt
    have h1' : (dot_S500000x1_S1x64_S500000x64_1_0_0_1_n_n.rhsIdx j k ⟨0, by decide⟩).val < 1 := h1
    show (dot_S500000x1_S1x64_S500000x64_1_0_0_1_n_n.rhsIdx j k ⟨0, by decide⟩).val = 0
    omega
  | ⟨1, _⟩ =>
    have hb : (1 : Fin 2) ∉ dot_S500000x1_S1x64_S500000x64_1_0_0_1_n_n.rhsBatch := by
      show (1 : Fin 2) ∉ ([] : List (Fin 2)); exact List.not_mem_nil
    have hn : (1 : Fin 2) ∈ dot_S500000x1_S1x64_S500000x64_1_0_0_1_n_n.rhsNonContracting := by
      show (1 : Fin 2) ∈ ([1] : List (Fin 2)); exact List.mem_singleton.mpr rfl
    show (dot_S500000x1_S1x64_S500000x64_1_0_0_1_n_n.rhsIdx j k 1).val = (j 1).val
    unfold DotDims.rhsIdx
    rw [dif_neg hb, dif_pos hn]
    simp only [Fin.val_cast]
    have key : ∀ (p : Nat) (hp : p < 2), p = 1 → (j ⟨p, hp⟩).val = (j 1).val := fun p hp h => by subst h; rfl
    exact key _ _ rfl

/-- The contraction of the first product has exactly one position. -/
theorem d1_card : Fintype.card dot_S500000x1_S1x64_S500000x64_1_0_0_1_n_n.contr.Idx = 1 :=
  (Fintype.card_congr (contrEquiv1 dot_S500000x1_S1x64_S500000x64_1_0_0_1_n_n 1 rfl rfl)).trans (Fintype.card_fin 1)

/-- `(L · R)[v, i] = L[v, 0] · R[0, i]` for a one-column `L` and a one-row `R`. -/
theorem dot1_apply (L : FVec Ideal S500000x1 .f32) (R : FVec Ideal S1x64 .f32) (v : Fin 500000) (i : Fin 64) :
    Host.dotGeneral dot_S500000x1_S1x64_S500000x64_1_0_0_1_n_n none L R (ix2 v i) = L (ix2 v 0) * R (ix2 0 i) := by
  simp only [Host.dotGeneral]
  rw [Ideal.dotGeneral_apply]
  simp only [d1_lhs, d1_rhs]
  rw [Finset.sum_const, Finset.card_univ, d1_card, one_nsmul]
  rfl

/-! ## The second product `h · W2`: the sum over the 64 hidden units -/

theorem d2_lhs0 (j : S500000x1.Idx) (k : dot_S500000x64_S64x1_S500000x1_1_0_0_1_n_n.contr.Idx) :
    (dot_S500000x64_S64x1_S500000x1_1_0_0_1_n_n.lhsIdx j k 0).val = (j 0).val := by
  have hb : (0 : Fin 2) ∉ dot_S500000x64_S64x1_S500000x1_1_0_0_1_n_n.lhsBatch := by
    show (0 : Fin 2) ∉ ([] : List (Fin 2)); exact List.not_mem_nil
  have hn : (0 : Fin 2) ∈ dot_S500000x64_S64x1_S500000x1_1_0_0_1_n_n.lhsNonContracting := by
    show (0 : Fin 2) ∈ ([0] : List (Fin 2)); exact List.mem_singleton.mpr rfl
  unfold DotDims.lhsIdx
  rw [dif_neg hb, dif_pos hn]
  simp only [Fin.val_cast]
  have key : ∀ (p : Nat) (hp : p < 2), p = 0 → (j ⟨p, hp⟩).val = (j 0).val := fun p hp h => by subst h; rfl
  exact key _ _ rfl

theorem d2_lhs1 (j : S500000x1.Idx) (i : Fin 64) :
    (dot_S500000x64_S64x1_S500000x1_1_0_0_1_n_n.lhsIdx j ((contrEquiv1 dot_S500000x64_S64x1_S500000x1_1_0_0_1_n_n 64 rfl rfl).symm i) 1).val = i.val :=
  (dot_S500000x64_S64x1_S500000x1_1_0_0_1_n_n.lhsIdx_val_of_single rfl j _).trans (contrEquiv1_symm_val dot_S500000x64_S64x1_S500000x1_1_0_0_1_n_n 64 rfl rfl i)

theorem d2_rhs0 (j : S500000x1.Idx) (i : Fin 64) :
    (dot_S500000x64_S64x1_S500000x1_1_0_0_1_n_n.rhsIdx j ((contrEquiv1 dot_S500000x64_S64x1_S500000x1_1_0_0_1_n_n 64 rfl rfl).symm i) 0).val = i.val :=
  (dot_S500000x64_S64x1_S500000x1_1_0_0_1_n_n.rhsIdx_val_of_single rfl j _).trans (contrEquiv1_symm_val dot_S500000x64_S64x1_S500000x1_1_0_0_1_n_n 64 rfl rfl i)

theorem d2_lhs (j : S500000x1.Idx) (i : Fin 64) :
    dot_S500000x64_S64x1_S500000x1_1_0_0_1_n_n.lhsIdx j ((contrEquiv1 dot_S500000x64_S64x1_S500000x1_1_0_0_1_n_n 64 rfl rfl).symm i) = ix2 (j 0) i := by
  funext a
  apply Fin.ext
  match a with
  | ⟨0, _⟩ => exact d2_lhs0 j _
  | ⟨1, _⟩ => exact d2_lhs1 j i

theorem d2_rhs (j : S500000x1.Idx) (i : Fin 64) :
    dot_S500000x64_S64x1_S500000x1_1_0_0_1_n_n.rhsIdx j ((contrEquiv1 dot_S500000x64_S64x1_S500000x1_1_0_0_1_n_n 64 rfl rfl).symm i) = ix2 i 0 := by
  funext a
  apply Fin.ext
  match a with
  | ⟨0, _⟩ => exact d2_rhs0 j i
  | ⟨1, _⟩ =>
    have h1 := (dot_S500000x64_S64x1_S500000x1_1_0_0_1_n_n.rhsIdx j ((contrEquiv1 dot_S500000x64_S64x1_S500000x1_1_0_0_1_n_n 64 rfl rfl).symm i) ⟨1, by decide⟩).isLt
    have h1' : (dot_S500000x64_S64x1_S500000x1_1_0_0_1_n_n.rhsIdx j ((contrEquiv1 dot_S500000x64_S64x1_S500000x1_1_0_0_1_n_n 64 rfl rfl).symm i) ⟨1, by decide⟩).val < 1 := h1
    show (dot_S500000x64_S64x1_S500000x1_1_0_0_1_n_n.rhsIdx j ((contrEquiv1 dot_S500000x64_S64x1_S500000x1_1_0_0_1_n_n 64 rfl rfl).symm i) ⟨1, by decide⟩).val = 0
    omega

/-- `(L · R)[v, 0] = Σ_i L[v, i] · R[i, 0]`. -/
theorem dot2_apply (L : FVec Ideal S500000x64 .f32) (R : FVec Ideal S64x1 .f32) (v : Fin 500000) (z : Fin 1) :
    Host.dotGeneral dot_S500000x64_S64x1_S500000x1_1_0_0_1_n_n none L R (ix2 v z) = ∑ i : Fin 64, L (ix2 v i) * R (ix2 i 0) := by
  simp only [Host.dotGeneral]
  rw [Ideal.dotGeneral_apply, ← Equiv.sum_comp (contrEquiv1 dot_S500000x64_S64x1_S500000x1_1_0_0_1_n_n 64 rfl rfl).symm]
  refine Finset.sum_congr rfl fun i _ => ?_
  rw [d2_lhs, d2_rhs]
  rfl

/-! ## The perceptron at a voxel whose average feature is `1/2`, and the first result -/

/-- Where the average feature is `1/2` the perceptron's value is the prediction. -/
theorem vout_at (inv : IVec S500000 32) (W1 : FVec Ideal S1x64 .f32) (b1 : FVec Ideal S64 .f32)
    (W2 : FVec Ideal S64x1 .f32) (b2 : FVec Ideal S1 .f32) (v : Fin 500000)
    (hv : vfeat (F := Ideal) inv (ix2 v 0) = Cert.Spec.half) :
    vout (F := Ideal) inv W1 b1 W2 b2 (ix2 v 0) = Cert.Spec.pred W1 b1 W2 b2 := by
  unfold vout
  show FloatOps.addf (Host.dotGeneral dot_S500000x64_S64x1_S500000x1_1_0_0_1_n_n none _ W2 (ix2 v 0)) _ = _
  rw [dot2_apply, bcast_b2]
  unfold Cert.Spec.pred Cert.Spec.hidden
  refine congrArg (· + b2 (ix1 0)) (Finset.sum_congr rfl fun i _ => congrArg (· * W2 (ix2 i 0)) ?_)
  show FloatOps.maximumf (FloatOps.addf (Host.dotGeneral dot_S500000x1_S1x64_S500000x64_1_0_0_1_n_n none (vfeat inv) W1 (ix2 v i)) _) _ = _
  rw [dot1_apply, bcast_b1, hv]
  show max (Cert.Spec.half * W1 (ix2 0 i) + b1 (ix1 i)) (Ideal.ofBits .f32 0x00000000#32)
    = max (W1 (ix2 0 i) * Cert.Spec.half + b1 (ix1 i)) 0
  rw [Ideal.ofBits_zero_f32, mul_comm]

/-- With every voxel number a position, each point's feature is the prediction. -/
theorem featOf_eq (inv : IVec S500000 32) (hinv : ∀ j : Fin 500000, (inv (ix1 j)).toNat < 500000)
    (W1 : FVec Ideal S1x64 .f32) (b1 : FVec Ideal S64 .f32) (W2 : FVec Ideal S64x1 .f32) (b2 : FVec Ideal S1 .f32) :
    featOf (F := Ideal) inv W1 b1 W2 b2 = Cert.Spec.Gfeat W1 b1 W2 b2 := by
  funext p
  obtain ⟨j, z, rfl⟩ : ∃ (j : Fin 500000) (z : Fin 1), p = ix2 j z := ⟨p 0, p 1, eq_ix2 p⟩
  unfold featOf
  rw [gather_row, wrapIdx_of_lt inv hinv, col_apply, clampRow_of_lt _ (hinv j)]
  exact vout_at inv W1 b1 W2 b2 _ (Cert.SegMean.vfeat_at inv hinv j)

/-- The first result is the prediction at every point. -/
theorem out87_eq (x : FVec Ideal S500000x4 .f32) (W1 : FVec Ideal S1x64 .f32) (b1 : FVec Ideal S64 .f32)
    (W2 : FVec Ideal S64x1 .f32) (b2 : FVec Ideal S1 .f32) :
    out87 (F := Ideal) x W1 b1 W2 b2 = Cert.Spec.Gfeat W1 b1 W2 b2 :=
  featOf_eq _ (Cert.RefRange.invFrom_lt _ _) W1 b1 W2 b2

end Cert.RefValue

end
-- ==== Proof.lean ====
/-
  The certificate: the kernel computes what the reference computes, over the extended reals.

  The reference groups the points into voxels, averages a constant feature `1/2 · 1` over each voxel, applies a
  two-layer perceptron per voxel and reads each point's voxel back. The average of a constant over a non-empty
  set is the constant, and the voxel a point names holds at least that point; so every point receives the
  perceptron's value at `1/2` — which is what the kernel computes once and broadcasts. The coordinates are
  `(x / q) · q` on both sides, operation for operation.

  The three runs: the word-level kernel's and the idealized kernel's frames are the generated ones; the
  reference's run is read off its straight line of host operations. The kernel's idealization rewrote nothing.
-/
import proofs.«134934_g20770461843884_cont_sun_c4_649_6_alg».proof.Defs
import proofs.«134934_g20770461843884_cont_sun_c4_649_6_alg».proof.Proof.Gen.Kernel
import proofs.«134934_g20770461843884_cont_sun_c4_649_6_alg».proof.Proof.Gen.Kernel.Skeleton
import proofs.«134934_g20770461843884_cont_sun_c4_649_6_alg».proof.Proof.Gen.Kernel.Launch
import proofs.«134934_g20770461843884_cont_sun_c4_649_6_alg».proof.Proof.Gen.Kernel.Points
import proofs.«134934_g20770461843884_cont_sun_c4_649_6_alg».proof.Proof.Gen.Kernel.Frame
import proofs.«134934_g20770461843884_cont_sun_c4_649_6_alg».proof.Proof.Gen.KernelIdeal
import proofs.«134934_g20770461843884_cont_sun_c4_649_6_alg».proof.Proof.Gen.KernelIdeal.Skeleton
import proofs.«134934_g20770461843884_cont_sun_c4_649_6_alg».proof.Proof.Gen.KernelIdeal.Launch
import proofs.«134934_g20770461843884_cont_sun_c4_649_6_alg».proof.Proof.Gen.KernelIdeal.Points
import proofs.«134934_g20770461843884_cont_sun_c4_649_6_alg».proof.Proof.Gen.KernelIdeal.Frame
import proofs.«134934_g20770461843884_cont_sun_c4_649_6_alg».proof.Proof.Gen.KernelIdeal.Value
import proofs.«134934_g20770461843884_cont_sun_c4_649_6_alg».proof.Proof.Gen.ReferenceIdeal
import proofs.«134934_g20770461843884_cont_sun_c4_649_6_alg».proof.Proof.Gen.Pre_finite_inputs
import proofs.«134934_g20770461843884_cont_sun_c4_649_6_alg».proof.Proof.KernelValue
import proofs.«134934_g20770461843884_cont_sun_c4_649_6_alg».proof.Proof.RefRun
import proofs.«134934_g20770461843884_cont_sun_c4_649_6_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.RefRun.run (F := Ideal) m ρ)

/-- Both programs end with the features at the prediction and the coordinates at `(x / q) · q` of the arguments,
    which agree. -/
theorem algebraic : Cert.algebraic_KernelIdeal_ReferenceIdeal := by
  intro m ρ m' ρ' _ hagree
  refine ⟨_, _, Cert.KernelValue.run m ρ, ?_⟩
  refine (θ_run Cert.ReferenceIdeal.defs _ _).mono (fun _ h c => ⟨(h c).1.trans ?_, (h c).2.1.trans ?_, (h c).2.2⟩)
    (Cert.RefRun.run (F := Ideal) m' ρ')
  · rw [(hagree c).2.1, (hagree c).2.2.1, (hagree c).2.2.2.1, (hagree c).2.2.2.2]
    exact Cert.RefValue.out87_eq _ _ _ _ _
  · rw [(hagree c).1]
    exact Cert.RefValue.out90_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
